-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : IVec S4096x8192 32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096 : Shape := ⟨1, ![4096]⟩
abbrev S512x1024 : Shape := ⟨2, ![512, 1024]⟩
abbrev S512 : Shape := ⟨1, ![512]⟩
abbrev S_ : Shape := ⟨0, ![]⟩

abbrev nBuf : Space → Nat
  | .hbm => 19
  | .vmem => 16
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .i32⟩
  | .local _ .vmem, ⟨3, _⟩ => ⟨S512x1024, .i32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512, .f32⟩
  | .local _ .vmem, ⟨15, _⟩ => ⟨S512, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_22 : BitVec 32 := 0#32
  let v47 : BitVec 1 := Scalar.cmpi .ne v46 c0_i32_22
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512_S512_0 : ∀ a, (![0] : Fin 1 → Nat) a + S512.size a ≤ S512.size a
  h_S512 : 0 < S512.numel
  shapeCasts_S512_S512 : S512.ShapeCasts S512
  inb_S512x1024_S512x1024_0_0 : ∀ a, (![0, 0] : Fin 2 → Nat) a + S512x1024.size a ≤ S512x1024.size a
  h_S512x1024 : 0 < S512x1024.numel
  natLt_1_32 : 1 < 32
  reduces_S512x1024_S512 : S512x1024.Reduces [1] S512
  reducesTo_S4096_S_d0 : S4096.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .i32 = 32 ∨ (Rect.block (s := S4096x8192) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S4096.size a
  hwx0_3 : ∀ i : grid0.Coords, EltTy.bits .f32 = 32 ∨ (Rect.block (s := S4096) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S4096.size a
  hwx0_4 : ∀ i : grid0.Coords, EltTy.bits .f32 = 32 ∨ (Rect.block (s := S4096) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .f32 = 32 ∨ (Rect.block (s := S4096) S512.size (cc0_transform_5 i) (hinb0_5 i)).WholeWords (EltTy.packing .f32)

variable [Facts₀]

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x8192 : Shape := ⟨2, ![4096, 8192]⟩
abbrev S_ : Shape := ⟨0, ![]⟩
abbrev S4096 : Shape := ⟨1, ![4096]⟩

abbrev nBuf : Space → Nat
  | .hbm => 49
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .i32⟩
  | .hbm, ⟨2, _⟩ => ⟨S_, .i32⟩
  | .hbm, ⟨3, _⟩ => ⟨S4096x8192, .i32⟩
  | .hbm, ⟨4, _⟩ => ⟨S4096x8192, .i1⟩
  | .hbm, ⟨5, _⟩ => ⟨S4096x8192, .i1⟩
  | .hbm, ⟨6, _⟩ => ⟨S4096x8192, .i32⟩
  | .hbm, ⟨7, _⟩ => ⟨S_, .i32⟩
  | .hbm, ⟨8, _⟩ => ⟨S4096, .i32⟩
  | .hbm, ⟨9, _⟩ => ⟨S4096, .f32⟩
  | .hbm, ⟨10, _⟩ => ⟨S4096x8192, .i1⟩
  | .hbm, ⟨11, _⟩ => ⟨S4096x8192, .i32⟩
  | .hbm, ⟨12, _⟩ => ⟨S_, .i32⟩
  | .hbm, ⟨13, _⟩ => ⟨S4096, .i32⟩
  | .hbm, ⟨14, _⟩ => ⟨S4096, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S_, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096, .f32⟩
  | .hbm, ⟨24, _⟩ => ⟨S_, .f32⟩
  | .hbm, ⟨25, _⟩ => ⟨S4096x8192, .f32⟩
  | .hbm, ⟨26, _⟩ => ⟨S4096x8192, .f32⟩
  | .hbm, ⟨27, _⟩ => ⟨S_, .f32⟩
  | .hbm, ⟨28, _⟩ => ⟨S4096x8192, .f32⟩
  | .hbm, ⟨29, _⟩ => ⟨S4096x8192, .f32⟩
  | .hbm, ⟨30, _⟩ => ⟨S_, .f32⟩
  | .hbm, ⟨31, _⟩ => ⟨S_, .f32⟩
  | .hbm, ⟨32, _⟩ => ⟨S4096x8192, .f32⟩
  | .hbm, ⟨33, _⟩ => ⟨S4096x8192, .f32⟩
  | .hbm, ⟨34, _⟩ => ⟨S_, .f32⟩
  | .hbm, ⟨35, _⟩ => ⟨S4096, .f32⟩
  | .hbm, ⟨36, _⟩ => ⟨S4096, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_1 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_call1_v0 : Ref sig .tc := ⟨.hbm, 31, rfl⟩
abbrev main_call1_v1 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_v21 : Ref sig .tc := ⟨.hbm, 38, rfl⟩
abbrev main_cst_9 : Ref sig .tc := ⟨.hbm, 39, rfl⟩
abbrev main_v22 : Ref sig .tc := ⟨.hbm, 40, rfl⟩
abbrev main_v23 : Ref sig .tc := ⟨.hbm, 41, rfl⟩
abbrev main_cst_10 : Ref sig .tc := ⟨.hbm, 42, rfl⟩
abbrev main_v24 : Ref sig .tc := ⟨.hbm, 43, rfl⟩
abbrev main_cst_11 : Ref sig .tc := ⟨.hbm, 44, rfl⟩
abbrev main_v25 : Ref sig .tc := ⟨.hbm, 45, rfl⟩
abbrev main_v26 : Ref sig .tc := ⟨.hbm, 46, rfl⟩
abbrev main_cst_12 : Ref sig .tc := ⟨.hbm, 47, rfl⟩
abbrev main_v27 : Ref sig .tc := ⟨.hbm, 48, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  natLt_1_32 : 1 < 32
  reducesTo_S4096x8192_S4096_d1 : S4096x8192.ReducesTo [1] S4096
  h_S_ : 0 < S_.numel
  reducesTo_S4096_S_d0 : S4096.ReducesTo [0] S_

variable [Facts₀]

class Facts : Prop extends Facts₀ where

variable [Facts]
-- ==== Proof.Pieces.lean ====
/-
  What each case of the kernel body leaves in its four accumulators and, at a row block's last point, in its four output
  blocks — as the body's stored values, at any float instance.

  The body keeps four [512] accumulators across the eight column tiles of a row block. Its three cases:
    first tile (A)    it stores zeros, reads them back, and stores the update over them;
    middle tiles (B)  it stores the update over what the point before left (xs0 … xs3);
    last tile (C)     the same update, and then each accumulator is loaded again and stored to its output block.
  The update of an accumulator found at a is the body's stored value for it: k0_pay8 x1 a (set bits), k0_pay9 x1 a (clear
  bits), k0_pay10 x0 x1 a (target sum), k0_pay1 x0 (k0_pay6 x1) k0_pay11 a (non-target sum), x0 and x1 the point's score and
  mask tiles. Each lemma reads the case's covering stores back: one store covers the accumulator (cases B, C), or the later
  of two does and its load reads the earlier (case A); an output block in case C is the load of the accumulator after its
  update.
-/
import proofs.«171753_j28011776704955_1_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl

variable (c : Dev nD) (i : grid0.Coords) (arg2 : Memref sig .tc .vmem S512x1024 .f32) (harg2 : arg2.IsWhole) (arg3 : Memref sig .tc .vmem S512x1024 .i32) (harg3 : arg3.IsWhole) (arg4 : Memref sig .tc .vmem S512 .f32) (harg4 : arg4.IsWhole) (arg5 : Memref sig .tc .vmem S512 .f32) (harg5 : arg5.IsWhole) (arg6 : Memref sig .tc .vmem S512 .f32) (harg6 : arg6.IsWhole) (arg7 : Memref sig .tc .vmem S512 .f32) (harg7 : arg7.IsWhole) (arg8 : Memref sig .tc .vmem S512 .f32) (harg8 : arg8.IsWhole) (arg9 : Memref sig .tc .vmem S512 .f32) (harg9 : arg9.IsWhole) (arg10 : Memref sig .tc .vmem S512 .f32) (harg10 : arg10.IsWhole) (arg11 : Memref sig .tc .vmem S512 .f32) (harg11 : arg11.IsWhole)

local notation "sA0" => sout0_A_0 c i arg2 harg2 arg3 harg3 arg4 harg4 arg5 harg5 arg6 harg6 arg7 harg7 arg8 harg8 arg9 harg9 arg10 harg10 arg11 harg11
local notation "sA1" => sout0_A_1 c i arg2 harg2 arg3 harg3 arg4 harg4 arg5 harg5 arg6 harg6 arg7 harg7 arg8 harg8 arg9 harg9 arg10 harg10 arg11 harg11
local notation "sA2" => sout0_A_2 c i arg2 harg2 arg3 harg3 arg4 harg4 arg5 harg5 arg6 harg6 arg7 harg7 arg8 harg8 arg9 harg9 arg10 harg10 arg11 harg11
local notation "sA3" => sout0_A_3 c i arg2 harg2 arg3 harg3 arg4 harg4 arg5 harg5 arg6 harg6 arg7 harg7 arg8 harg8 arg9 harg9 arg10 harg10 arg11 harg11
local notation "cA0" => scover0_A_0 c i arg2 harg2 arg3 harg3 arg4 harg4 arg5 harg5 arg6 harg6 arg7 harg7 arg8 harg8 arg9 harg9 arg10 harg10 arg11 harg11
local notation "cA1" => scover0_A_1 c i arg2 harg2 arg3 harg3 arg4 harg4 arg5 harg5 arg6 harg6 arg7 harg7 arg8 harg8 arg9 harg9 arg10 harg10 arg11 harg11
local notation "cA2" => scover0_A_2 c i arg2 harg2 arg3 harg3 arg4 harg4 arg5 harg5 arg6 harg6 arg7 harg7 arg8 harg8 arg9 harg9 arg10 harg10 arg11 harg11
local notation "cA3" => scover0_A_3 c i arg2 harg2 arg3 harg3 arg4 harg4 arg5 harg5 arg6 harg6 arg7 harg7 arg8 harg8 arg9 harg9 arg10 harg10 arg11 harg11
local notation "sB0" => sout0_B_0 c i arg2 harg2 arg3 harg3 arg4 harg4 arg5 harg5 arg6 harg6 arg7 harg7 arg8 harg8 arg9 harg9 arg10 harg10 arg11 harg11
local notation "sB1" => sout0_B_1 c i arg2 harg2 arg3 harg3 arg4 harg4 arg5 harg5 arg6 harg6 arg7 harg7 arg8 harg8 arg9 harg9 arg10 harg10 arg11 harg11
local notation "sB2" => sout0_B_2 c i arg2 harg2 arg3 harg3 arg4 harg4 arg5 harg5 arg6 harg6 arg7 harg7 arg8 harg8 arg9 harg9 arg10 harg10 arg11 harg11
local notation "sB3" => sout0_B_3 c i arg2 harg2 arg3 harg3 arg4 harg4 arg5 harg5 arg6 harg6 arg7 harg7 arg8 harg8 arg9 harg9 arg10 harg10 arg11 harg11
local notation "cB0" => scover0_B_0 c i arg2 harg2 arg3 harg3 arg4 harg4 arg5 harg5 arg6 harg6 arg7 harg7 arg8 harg8 arg9 harg9 arg10 harg10 arg11 harg11
local notation "cB1" => scover0_B_1 c i arg2 harg2 arg3 harg3 arg4 harg4 arg5 harg5 arg6 harg6 arg7 harg7 arg8 harg8 arg9 harg9 arg10 harg10 arg11 harg11
local notation "cB2" => scover0_B_2 c i arg2 harg2 arg3 harg3 arg4 harg4 arg5 harg5 arg6 harg6 arg7 harg7 arg8 harg8 arg9 harg9 arg10 harg10 arg11 harg11
local notation "cB3" => scover0_B_3 c i arg2 harg2 arg3 harg3 arg4 harg4 arg5 harg5 arg6 harg6 arg7 harg7 arg8 harg8 arg9 harg9 arg10 harg10 arg11 harg11
local notation "sC0" => sout0_C_0 c i arg2 harg2 arg3 harg3 arg4 harg4 arg5 harg5 arg6 harg6 arg7 harg7 arg8 harg8 arg9 harg9 arg10 harg10 arg11 harg11
local notation "sC1" => sout0_C_1 c i arg2 harg2 arg3 harg3 arg4 harg4 arg5 harg5 arg6 harg6 arg7 harg7 arg8 harg8 arg9 harg9 arg10 harg10 arg11 harg11
local notation "sC2" => sout0_C_2 c i arg2 harg2 arg3 harg3 arg4 harg4 arg5 harg5 arg6 harg6 arg7 harg7 arg8 harg8 arg9 harg9 arg10 harg10 arg11 harg11
local notation "sC3" => sout0_C_3 c i arg2 harg2 arg3 harg3 arg4 harg4 arg5 harg5 arg6 harg6 arg7 harg7 arg8 harg8 arg9 harg9 arg10 harg10 arg11 harg11
local notation "cC0" => scover0_C_0 c i arg2 harg2 arg3 harg3 arg4 harg4 arg5 harg5 arg6 harg6 arg7 harg7 arg8 harg8 arg9 harg9 arg10 harg10 arg11 harg11
local notation "cC1" => scover0_C_1 c i arg2 harg2 arg3 harg3 arg4 harg4 arg5 harg5 arg6 harg6 arg7 harg7 arg8 harg8 arg9 harg9 arg10 harg10 arg11 harg11
local notation "cC2" => scover0_C_2 c i arg2 harg2 arg3 harg3 arg4 harg4 arg5 harg5 arg6 harg6 arg7 harg7 arg8 harg8 arg9 harg9 arg10 harg10 arg11 harg11
local notation "cC3" => scover0_C_3 c i arg2 harg2 arg3 harg3 arg4 harg4 arg5 harg5 arg6 harg6 arg7 harg7 arg8 harg8 arg9 harg9 arg10 harg10 arg11 harg11
local notation "oC2" => out0_C_2 c i arg2 harg2 arg3 harg3 arg4 harg4 arg5 harg5 arg6 harg6 arg7 harg7 arg8 harg8 arg9 harg9 arg10 harg10 arg11 harg11
local notation "oC3" => out0_C_3 c i arg2 harg2 arg3 harg3 arg4 harg4 arg5 harg5 arg6 harg6 arg7 harg7 arg8 harg8 arg9 harg9 arg10 harg10 arg11 harg11
local notation "oC4" => out0_C_4 c i arg2 harg2 arg3 harg3 arg4 harg4 arg5 harg5 arg6 harg6 arg7 harg7 arg8 harg8 arg9 harg9 arg10 harg10 arg11 harg11
local notation "oC5" => out0_C_5 c i arg2 harg2 arg3 harg3 arg4 harg4 arg5 harg5 arg6 harg6 arg7 harg7 arg8 harg8 arg9 harg9 arg10 harg10 arg11 harg11
local notation "kC2" => cover0_C_2 c i arg2 harg2 arg3 harg3 arg4 harg4 arg5 harg5 arg6 harg6 arg7 harg7 arg8 harg8 arg9 harg9 arg10 harg10 arg11 harg11
local notation "kC3" => cover0_C_3 c i arg2 harg2 arg3 harg3 arg4 harg4 arg5 harg5 arg6 harg6 arg7 harg7 arg8 harg8 arg9 harg9 arg10 harg10 arg11 harg11
local notation "kC4" => cover0_C_4 c i arg2 harg2 arg3 harg3 arg4 harg4 arg5 harg5 arg6 harg6 arg7 harg7 arg8 harg8 arg9 harg9 arg10 harg10 arg11 harg11
local notation "kC5" => cover0_C_5 c i arg2 harg2 arg3 harg3 arg4 harg4 arg5 harg5 arg6 harg6 arg7 harg7 arg8 harg8 arg9 harg9 arg10 harg10 arg11 harg11

/-! ## Case A: the first column tile of a row block -/

section caseA
variable (hc0 : cond0_0 i) (hc1 : ¬cond0_1 i) (x0 : Vec F S512x1024 .f32) (x1 : Vec F S512x1024 .i32)

theorem scrA0 : sA0 hc0 hc1 x0 x1 = k0_pay8 x1 (k0_pay2 (F := F)) := by
  unfold sout0_A_0
  rw [View.read_writes_eq_canon _ _ _ (cA0 hc0 hc1 x0 x1)]
  unfold kernelRun0_A
  dsimp only
  sl_unfold_words
  rw [View.canon_cons_unit_zero (S := S512) hz1, View.readCov_unit_zero (S := S512) _ hz1]
  simp only [View.readAt_eq_ld, harg2.read_unread, harg3.read_unread, View.ld_unit_zero (S := S512x1024) hz2]

theorem scrA1 : sA1 hc0 hc1 x0 x1 = k0_pay9 x1 (k0_pay3 (F := F)) := by
  unfold sout0_A_1
  rw [View.read_writes_eq_canon _ _ _ (cA1 hc0 hc1 x0 x1)]
  unfold kernelRun0_A
  dsimp only
  sl_unfold_words
  rw [View.canon_cons_unit_zero (S := S512) hz1, View.readCov_unit_zero (S := S512) _ hz1]
  simp only [View.readAt_eq_ld, harg2.read_unread, harg3.read_unread, View.ld_unit_zero (S := S512x1024) hz2]

theorem scrA2 : sA2 hc0 hc1 x0 x1 = k0_pay10 x0 x1 (k0_pay4 (F := F)) := by
  unfold sout0_A_2
  rw [View.read_writes_eq_canon _ _ _ (cA2 hc0 hc1 x0 x1)]
  unfold kernelRun0_A
  dsimp only
  sl_unfold_words
  rw [View.canon_cons_unit_zero (S := S512) hz1, View.readCov_unit_zero (S := S512) _ hz1]
  simp only [View.readAt_eq_ld, harg2.read_unread, harg3.read_unread, View.ld_unit_zero (S := S512x1024) hz2]

theorem scrA3 : sA3 hc0 hc1 x0 x1 = k0_pay1 x0 (k0_pay6 x1) (k0_pay11 (F := F)) (k0_pay5 (F := F)) := by
  unfold sout0_A_3
  rw [View.read_writes_eq_canon _ _ _ (cA3 hc0 hc1 x0 x1)]
  unfold kernelRun0_A
  dsimp only
  sl_unfold_words
  rw [View.canon_cons_unit_zero (S := S512) hz1, View.readCov_unit_zero (S := S512) _ hz1]
  simp only [View.readAt_eq_ld, harg2.read_unread, harg3.read_unread, View.ld_unit_zero (S := S512x1024) hz2]

end caseA

/-! ## Case B: a middle column tile -/

section caseB
variable (hc0 : ¬cond0_0 i) (hc1 : ¬cond0_1 i) (x0 : Vec F S512x1024 .f32) (x1 : Vec F S512x1024 .i32)
  (xs0 xs1 xs2 xs3 : Vec F S512 .f32)

theorem scrB0 : sB0 hc0 hc1 x0 x1 xs0 xs1 xs2 xs3 = k0_pay8 x1 xs0 := by
  unfold sout0_B_0
  rw [View.read_writes_eq_canon _ _ _ (cB0 hc0 hc1 x0 x1 xs0 xs1 xs2 xs3)]
  unfold kernelRun0_B
  dsimp only
  sl_unfold_words
  rw [View.canon_unit_zero hz1]
  simp only [View.readAt_eq_ld, harg2.read_unread, harg3.read_unread, harg8.read_unread,
    View.ld_unit_zero (S := S512x1024) hz2, View.ld_unit_zero (S := S512) hz1]

theorem scrB1 : sB1 hc0 hc1 x0 x1 xs0 xs1 xs2 xs3 = k0_pay9 x1 xs1 := by
  unfold sout0_B_1
  rw [View.read_writes_eq_canon _ _ _ (cB1 hc0 hc1 x0 x1 xs0 xs1 xs2 xs3)]
  unfold kernelRun0_B
  dsimp only
  sl_unfold_words
  rw [View.canon_unit_zero hz1]
  simp only [View.readAt_eq_ld, harg2.read_unread, harg3.read_unread, harg9.read_unread,
    View.ld_unit_zero (S := S512x1024) hz2, View.ld_unit_zero (S := S512) hz1]

theorem scrB2 : sB2 hc0 hc1 x0 x1 xs0 xs1 xs2 xs3 = k0_pay10 x0 x1 xs2 := by
  unfold sout0_B_2
  rw [View.read_writes_eq_canon _ _ _ (cB2 hc0 hc1 x0 x1 xs0 xs1 xs2 xs3)]
  unfold kernelRun0_B
  dsimp only
  sl_unfold_words
  rw [View.canon_unit_zero hz1]
  simp only [View.readAt_eq_ld, harg2.read_unread, harg3.read_unread, harg10.read_unread,
    View.ld_unit_zero (S := S512x1024) hz2, View.ld_unit_zero (S := S512) hz1]

theorem scrB3 : sB3 hc0 hc1 x0 x1 xs0 xs1 xs2 xs3 = k0_pay1 x0 (k0_pay6 x1) (k0_pay11 (F := F)) xs3 := by
  unfold sout0_B_3
  rw [View.read_writes_eq_canon _ _ _ (cB3 hc0 hc1 x0 x1 xs0 xs1 xs2 xs3)]
  unfold kernelRun0_B
  dsimp only
  sl_unfold_words
  rw [View.canon_unit_zero hz1]
  simp only [View.readAt_eq_ld, harg2.read_unread, harg3.read_unread, harg11.read_unread,
    View.ld_unit_zero (S := S512x1024) hz2, View.ld_unit_zero (S := S512) hz1]

end caseB

/-! ## Case C: the last column tile of a row block -/

section caseC
variable (hc0 : ¬cond0_0 i) (hc1 : cond0_1 i) (x0 : Vec F S512x1024 .f32) (x1 : Vec F S512x1024 .i32)
  (xs0 xs1 xs2 xs3 : Vec F S512 .f32)

theorem scrC0 : sC0 hc0 hc1 x0 x1 xs0 xs1 xs2 xs3 = k0_pay8 x1 xs0 := by
  unfold sout0_C_0
  rw [View.read_writes_eq_canon _ _ _ (cC0 hc0 hc1 x0 x1 xs0 xs1 xs2 xs3)]
  unfold kernelRun0_C
  dsimp only
  sl_unfold_words
  rw [View.canon_unit_zero hz1]
  simp only [View.readAt_eq_ld, harg2.read_unread, harg3.read_unread, harg8.read_unread,
    View.ld_unit_zero (S := S512x1024) hz2, View.ld_unit_zero (S := S512) hz1]

theorem scrC1 : sC1 hc0 hc1 x0 x1 xs0 xs1 xs2 xs3 = k0_pay9 x1 xs1 := by
  unfold sout0_C_1
  rw [View.read_writes_eq_canon _ _ _ (cC1 hc0 hc1 x0 x1 xs0 xs1 xs2 xs3)]
  unfold kernelRun0_C
  dsimp only
  sl_unfold_words
  rw [View.canon_unit_zero hz1]
  simp only [View.readAt_eq_ld, harg2.read_unread, harg3.read_unread, harg9.read_unread,
    View.ld_unit_zero (S := S512x1024) hz2, View.ld_unit_zero (S := S512) hz1]

theorem scrC2 : sC2 hc0 hc1 x0 x1 xs0 xs1 xs2 xs3 = k0_pay10 x0 x1 xs2 := by
  unfold sout0_C_2
  rw [View.read_writes_eq_canon _ _ _ (cC2 hc0 hc1 x0 x1 xs0 xs1 xs2 xs3)]
  unfold kernelRun0_C
  dsimp only
  sl_unfold_words
  rw [View.canon_unit_zero hz1]
  simp only [View.readAt_eq_ld, harg2.read_unread, harg3.read_unread, harg10.read_unread,
    View.ld_unit_zero (S := S512x1024) hz2, View.ld_unit_zero (S := S512) hz1]

theorem scrC3 : sC3 hc0 hc1 x0 x1 xs0 xs1 xs2 xs3 = k0_pay1 x0 (k0_pay6 x1) (k0_pay11 (F := F)) xs3 := by
  unfold sout0_C_3
  rw [View.read_writes_eq_canon _ _ _ (cC3 hc0 hc1 x0 x1 xs0 xs1 xs2 xs3)]
  unfold kernelRun0_C
  dsimp only
  sl_unfold_words
  rw [View.canon_unit_zero hz1]
  simp only [View.readAt_eq_ld, harg2.read_unread, harg3.read_unread, harg11.read_unread,
    View.ld_unit_zero (S := S512x1024) hz2, View.ld_unit_zero (S := S512) hz1]

theorem outC2 : oC2 hc0 hc1 x0 x1 xs0 xs1 xs2 xs3 = k0_pay8 x1 xs0 := by
  unfold out0_C_2
  rw [View.read_writes_eq_canon _ _ _ (kC2 hc0 hc1 x0 x1 xs0 xs1 xs2 xs3)]
  unfold kernelRun0_C
  dsimp only
  sl_unfold_words
  rw [View.canon_unit_zero hz1, View.readCov_unit_zero (S := S512) _ hz1]
  simp only [View.readAt_eq_ld, harg2.read_unread, harg3.read_unread, harg8.read_unread,
    View.ld_unit_zero (S := S512x1024) hz2, View.ld_unit_zero (S := S512) hz1]

theorem outC3 : oC3 hc0 hc1 x0 x1 xs0 xs1 xs2 xs3 = k0_pay9 x1 xs1 := by
  unfold out0_C_3
  rw [View.read_writes_eq_canon _ _ _ (kC3 hc0 hc1 x0 x1 xs0 xs1 xs2 xs3)]
  unfold kernelRun0_C
  dsimp only
  sl_unfold_words
  rw [View.canon_unit_zero hz1, View.readCov_unit_zero (S := S512) _ hz1]
  simp only [View.readAt_eq_ld, harg2.read_unread, harg3.read_unread, harg9.read_unread,
    View.ld_unit_zero (S := S512x1024) hz2, View.ld_unit_zero (S := S512) hz1]

theorem outC4 : oC4 hc0 hc1 x0 x1 xs0 xs1 xs2 xs3 = k0_pay10 x0 x1 xs2 := by
  unfold out0_C_4
  rw [View.read_writes_eq_canon _ _ _ (kC4 hc0 hc1 x0 x1 xs0 xs1 xs2 xs3)]
  unfold kernelRun0_C
  dsimp only
  sl_unfold_words
  rw [View.canon_unit_zero hz1, View.readCov_unit_zero (S := S512) _ hz1]
  simp only [View.readAt_eq_ld, harg2.read_unread, harg3.read_unread, harg10.read_unread,
    View.ld_unit_zero (S := S512x1024) hz2, View.ld_unit_zero (S := S512) hz1]

theorem outC5 : oC5 hc0 hc1 x0 x1 xs0 xs1 xs2 xs3 = k0_pay1 x0 (k0_pay6 x1) (k0_pay11 (F := F)) xs3 := by
  unfold out0_C_5
  rw [View.read_writes_eq_canon _ _ _ (kC5 hc0 hc1 x0 x1 xs0 xs1 xs2 xs3)]
  unfold kernelRun0_C
  dsimp only
  sl_unfold_words
  rw [View.canon_unit_zero hz1, View.readCov_unit_zero (S := S512) _ hz1]
  simp only [View.readAt_eq_ld, harg2.read_unread, harg3.read_unread, harg11.read_unread,
    View.ld_unit_zero (S := S512x1024) hz2, View.ld_unit_zero (S := S512) hz1]

end caseC

end Cert.KernelIdeal.Pieces

end
-- ==== Proof.LibBlockSum.lean ====
/-
  A sum over a long index range cut into consecutive blocks of equal length: in a commutative monoid (the extended reals'
  addition is one) the sum over `a · b` positions is the sum, block by block, of the sums inside each block of length
  `b`; position `b · s + x` is position `x` of block `s`. Stated for functions on the naturals (no bound travels with
  the position), and for functions on `Fin (a · b)`.
-/
import Mathlib.Algebra.BigOperators.Fin
import Mathlib.Algebra.BigOperators.Intervals

open scoped BigOperators

namespace BlockSum

variable {M : Type*} [AddCommMonoid M]

/-- The first `a · b` terms are `a` consecutive blocks of `b` terms. -/
theorem sum_range_mul (f : ℕ → M) (a b : ℕ) :
    ∑ i ∈ Finset.range (a * b), f i = ∑ s ∈ Finset.range a, ∑ x ∈ Finset.range b, f (b * s + x) := by
  induction a with
  | zero => simp
  | succ a ih =>
    rw [Nat.succ_mul, Finset.sum_range_add, ih, Finset.sum_range_succ, Nat.mul_comm a b]

/-- The same over the finite index types: a sum over `Fin (a · b)` of a function of the position's value. -/
theorem sum_fin_mul (f : ℕ → M) (a b : ℕ) :
    ∑ i : Fin (a * b), f i.val = ∑ s ∈ Finset.range a, ∑ x : Fin b, f (b * s + x.val) := by
  rw [Fin.sum_univ_eq_sum_range (fun i => f i) (a * b), sum_range_mul]
  refine Finset.sum_congr rfl fun s _ => ?_
  rw [← Fin.sum_univ_eq_sum_range (fun x => f (b * s + x)) b]

end BlockSum
-- ==== Proof.Spec.lean ====
/-
  The row statistics of a masked cosine loss, as plain functions of the two argument arrays.

  For a score array x : [4096 × 8192] of extended reals and a mask array mk : [4096 × 8192] of 32-bit words, row r has
    cntT r = the number of columns q with mk (r, q) ≠ 0,           cntN r = the number of columns with mk (r, q) = 0,
    sumT r = the sum over the columns with mk ≠ 0 of 1 − x (r, q),  sumN r = the sum over the others of max (x (r, q) − 0) 0,
  each count read as a float. Every one of the four is a sum over the 8192 columns of one term per entry (ind, ind of the
  complemented bit, tgt, non), and that is how they are defined here: the kernel reaches the same sums tile by tile, and
  the reference column by column in one pass, the two counts through 32-bit integers.

  Entries are read at natural-number coordinates (bitAt, valAt; a value nothing depends on out of range), so that a tile's
  entry is addressed as  tile · size + offset  with no bound travelling along.

  The laws proved here:
    part_zero / part_succ   the running sum over the first j + 1 column tiles of 1024, one tile at a time;
    part_seven              all eight tiles are the whole row; acc_eq_part: a restart-and-add sequence is the running sum;
    tile_compl              inside one tile, 1024 minus the number of set bits is the number of clear bits;
    count_cols              an integer sum of the widened mask bits along a row, converted to a float, is the sum of ind.
-/
import Idealize.ShloMosaic.PureOps.Ideal
import Idealize.ShloMosaic.PureOps.Ideal.Laws
import Idealize.ShloMosaic.Lib.ValueIdx
import Idealize.ShloMosaic.Lib.StableHlo.Predicate
import proofs.«171753_j28011776704955_1_alg».proof.Proof.LibBlockSum

noncomputable section

namespace RowLoss

open Idealize.ShloMosaic Idealize.ShloMosaic.ValueIdx
open scoped BigOperators

/-- The shape of the two argument arrays, of one row vector, of one tile and of one tile's row vector. -/
abbrev SA : Shape := ⟨2, ![4096, 8192]⟩
abbrev SR : Shape := ⟨1, ![4096]⟩
abbrev ST : Shape := ⟨2, ![512, 1024]⟩
abbrev SB : Shape := ⟨1, ![512]⟩

/-! ## One entry's terms -/

/-- A mask bit as a float: the bit widened to a word and read as a signed integer. -/
def ind (b : BitVec 1) : EReal := FloatOps.sitofp (F := Ideal) .f32 (b.setWidth 32)

/-- An entry's term of the target sum: 1 − v under a set bit, 0 otherwise. -/
def tgt (b : BitVec 1) (v : EReal) : EReal :=
  Scalar.select b (Ideal.ofBits .f32 0x3F800000#32 - v) (Ideal.ofBits .f32 0x00000000#32)

/-- An entry's term of the non-target sum: 0 under a set bit, max (v − 0) 0 otherwise. -/
def non (b : BitVec 1) (v : EReal) : EReal :=
  Scalar.select b (Ideal.ofBits .f32 0x00000000#32)
    (max (v - Ideal.ofBits .f32 0x00000000#32) (Ideal.ofBits .f32 0x00000000#32))

/-- The float of a bit is the real 1 or 0. -/
theorem ind_eq (b : BitVec 1) : ind b = (((if b = 1#1 then 1 else 0 : ℕ) : ℝ) : EReal) := by
  rcases BitVec.eq_zero_or_eq_one b with rfl | rfl
  · show (((BitVec.setWidth 32 0#1).toInt : ℝ) : EReal) = _
    simp
  · show (((BitVec.setWidth 32 1#1).toInt : ℝ) : EReal) = _
    simp

/-- The complemented bit's float is one minus the bit's. -/
theorem ind_not (b : BitVec 1) : ind (~~~b) = ((((1 : ℝ) - (if b = 1#1 then 1 else 0 : ℕ) : ℝ)) : EReal) := by
  rcases BitVec.eq_zero_or_eq_one b with rfl | rfl
  · rw [show ~~~(0#1) = 1#1 from by decide, ind_eq]; simp
  · rw [show ~~~(1#1) = 0#1 from by decide, ind_eq]; simp

/-! ## The arrays read at natural-number coordinates -/

/-- The mask's bit at row r, column q: whether the word there is not zero. -/
def bitAt (mk : SA.Idx → BitVec 32) (r q : ℕ) : BitVec 1 :=
  if h : r < 4096 ∧ q < 8192 then IntOp.cmpi .ne (mk (ix2 ⟨r, h.1⟩ ⟨q, h.2⟩)) 0#32 else 0#1

/-- The score at row r, column q. -/
def valAt (x : SA.Idx → EReal) (r q : ℕ) : EReal :=
  if h : r < 4096 ∧ q < 8192 then x (ix2 ⟨r, h.1⟩ ⟨q, h.2⟩) else 0

theorem bitAt_of_lt (mk : SA.Idx → BitVec 32) {r q : ℕ} (hr : r < 4096) (hq : q < 8192) :
    bitAt mk r q = IntOp.cmpi .ne (mk (ix2 ⟨r, hr⟩ ⟨q, hq⟩)) 0#32 := dif_pos ⟨hr, hq⟩

theorem valAt_of_lt (x : SA.Idx → EReal) {r q : ℕ} (hr : r < 4096) (hq : q < 8192) :
    valAt x r q = x (ix2 ⟨r, hr⟩ ⟨q, hq⟩) := dif_pos ⟨hr, hq⟩

/-! ## The four row statistics -/

def cntT (mk : SA.Idx → BitVec 32) (r : ℕ) : EReal := ∑ q : Fin 8192, ind (bitAt mk r q)
def cntN (mk : SA.Idx → BitVec 32) (r : ℕ) : EReal := ∑ q : Fin 8192, ind (~~~bitAt mk r q)
def sumT (x : SA.Idx → EReal) (mk : SA.Idx → BitVec 32) (r : ℕ) : EReal :=
  ∑ q : Fin 8192, tgt (bitAt mk r q) (valAt x r q)
def sumN (x : SA.Idx → EReal) (mk : SA.Idx → BitVec 32) (r : ℕ) : EReal :=
  ∑ q : Fin 8192, non (bitAt mk r q) (valAt x r q)

/-! ## Running sums over column tiles of 1024 -/

/-- The sum of f over the first j + 1 tiles of 1024 consecutive positions. -/
def part (f : ℕ → EReal) (j : ℕ) : EReal := ∑ s ∈ Finset.range (j + 1), ∑ k : Fin 1024, f (1024 * s + k.val)

theorem part_zero (f : ℕ → EReal) : part f 0 = ∑ k : Fin 1024, f (1024 * 0 + k.val) := by
  unfold part; rw [Finset.sum_range_one]

theorem part_succ (f : ℕ → EReal) (j : ℕ) :
    part f (j + 1) = part f j + ∑ k : Fin 1024, f (1024 * (j + 1) + k.val) := by
  unfold part; rw [Finset.sum_range_succ]

/-- All eight tiles of a row: the sum over its 8192 columns. -/
theorem part_seven (f : ℕ → EReal) : part f 7 = ∑ q : Fin 8192, f q.val := by
  unfold part
  exact (BlockSum.sum_fin_mul f 8 1024).symm

/-- A sequence that restarts from zero at every eighth position and otherwise adds the next tile's sum to its predecessor
    is the running sum: with position n = 8 · (row block) + (column tile), and g (row block) the row block's entries. -/
theorem acc_eq_part (s : ℕ → EReal) (g : ℕ → ℕ → EReal) (N : ℕ)
    (h0 : ∀ n, n < N → n % 8 = 0 → s n = 0 + ∑ k : Fin 1024, g (n / 8) (1024 * (n % 8) + k.val))
    (h1 : ∀ n, n < N → ¬n % 8 = 0 → s n = s (n - 1) + ∑ k : Fin 1024, g (n / 8) (1024 * (n % 8) + k.val)) :
    ∀ n, n < N → s n = part (g (n / 8)) (n % 8) := by
  intro n
  induction n with
  | zero =>
    intro hn
    rw [h0 0 hn rfl, zero_add]
    exact (part_zero _).symm
  | succ n ih =>
    intro hn
    by_cases hz : (n + 1) % 8 = 0
    · rw [h0 (n + 1) hn hz, zero_add, hz]
      exact (part_zero _).symm
    · have hd : (n + 1) / 8 = n / 8 := by omega
      have hm : (n + 1) % 8 = n % 8 + 1 := by omega
      rw [h1 (n + 1) hn hz, Nat.add_sub_cancel, ih (by omega), hd, hm]
      exact (part_succ _ _).symm

/-! ## Counting inside one tile -/

/-- The coercion of a finite sum of reals is the sum of the coercions. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The float 1024.0 is the real 1024. -/
theorem ofBits_1024 : Ideal.ofBits .f32 0x44800000#32 = ((1024 : ℝ) : EReal) := by
  simp [Ideal.ofBits, Ideal.ieee, -EReal.coe_mul]; norm_num

/-- In a tile of 1024 bits, 1024 minus the number set is the number clear — all as floats. -/
theorem tile_compl (b : Fin 1024 → BitVec 1) :
    Ideal.ofBits .f32 0x44800000#32 - ∑ k : Fin 1024, ind (b k) = ∑ k : Fin 1024, ind (~~~b k) := by
  simp only [ind_not]
  simp only [ind_eq]
  rw [ofBits_1024, ← coe_sum, ← coe_sum, ← EReal.coe_sub]
  congr 1
  rw [Finset.sum_sub_distrib]
  simp

/-! ## The reference's integer count, as a float -/

/-- Along a row of a [4096 × 8192] bit mask, the 32-bit sum of the widened bits read as a float is the sum of the bits'
    floats: at most 8192 ones are added, so the word neither wraps nor turns negative. -/
theorem count_cols (mask : IVec SA 1) (h : SA.ReducesTo [1] SR) {u : Shape} (hu : 0 < u.numel) (r : Fin 4096) :
    FloatOps.sitofp (F := Ideal) .f32 (Host.reduce IntOp.addi (extui 32 mask (by decide)) (constantI u 32 0#32) h hu (ix1 r))
      = ∑ q : Fin 8192, ind (mask (ix2 r q)) := by
  classical
  have hc := StableHlo.Predicate.toNat_reduce_count_cols (n := 4096) (m := 8192) (by decide) mask (by decide) h hu (ix1 r)
  set w := Host.reduce IntOp.addi (extui 32 mask (by decide)) (constantI u 32 0#32) h hu (ix1 r) with hw
  have hle : (Finset.univ.filter (fun q : Fin 8192 => mask (StableHlo.Predicate.ij ((ix1 r : SR.Idx) 0) q) = 1#1)).card ≤ 8192 :=
    le_trans (Finset.card_le_univ _) (by simp)
  have hlt : w.toNat < 2 ^ 31 := by rw [hc]; omega
  show (((w.toInt : ℝ)) : EReal) = _
  rw [StableHlo.Predicate.toInt_eq_toNat_of_lt hlt, hc, Finset.card_filter]
  simp only [ind_eq]
  rw [← coe_sum]
  push_cast
  rfl

/-! ## The shared host tail -/

abbrev S0 : Shape := ⟨0, ![]⟩

/-- The two shape facts the tail's sum over the rows cites: a [4096] vector summed over its one axis is a scalar, and a
    scalar has an entry. -/
theorem redRows : SR.ReducesTo [0] S0 := by decide
theorem posS0 : 0 < S0.numel := by decide

/-- The mean over the 4096 rows of the row-wise quotient s / c (the host's quotient, its sum from zero, its division
    by 4096.0). Both programs end with this same chain; it is carried as one function and never opened. -/
def meanRatio (s c : FVec Ideal SR .f32) (h : SR.ReducesTo [0] S0) (hu : 0 < S0.numel) : FVec Ideal S0 .f32 :=
  Host.divf (F := Ideal)
    (Host.reduceAdd (F := Ideal) (Host.divf (F := Ideal) s c) (constant (F := Ideal) S0 .f32 0x00000000#32) h hu)
    (constant (F := Ideal) S0 .f32 0x45800000#32)

/-- Half the sum of two scalars (the host's sum and its division by 2.0). -/
def halfSum (a b : FVec Ideal S0 .f32) : FVec Ideal S0 .f32 :=
  Host.divf (F := Ideal) (addf a b) (constant (F := Ideal) S0 .f32 0x40000000#32)

/-- The four row statistics as [4096] vectors. -/
def cntTv (mk : SA.Idx → BitVec 32) : FVec Ideal SR .f32 := fun j => cntT mk (j 0).val
def cntNv (mk : SA.Idx → BitVec 32) : FVec Ideal SR .f32 := fun j => cntN mk (j 0).val
def sumTv (x : SA.Idx → EReal) (mk : SA.Idx → BitVec 32) : FVec Ideal SR .f32 := fun j => sumT x mk (j 0).val
def sumNv (x : SA.Idx → EReal) (mk : SA.Idx → BitVec 32) : FVec Ideal SR .f32 := fun j => sumN x mk (j 0).val

end RowLoss

end
-- ==== Proof.Tile.lean ====
/-
  What one grid point adds to each of the four running row sums, entry by entry.

  At a grid point the body holds a [512 × 1024] tile of the scores (x0) and of the mask words (x1) and, for each of its four
  accumulators, the [512] vector a it found there. Row y of what it stores back is
    count of set bits      a y + the sum over the tile's 1024 columns k of ind (x1 (y, k) ≠ 0),
    count of clear bits    a y + (1024 − that same sum),
    target sum             a y + the sum over k of tgt (x1 (y, k) ≠ 0) (x0 (y, k)),
    non-target sum         a y + the sum over k of non (x1 (y, k) ≠ 0) (x0 (y, k)),
  and the four vectors stored at a row block's first point are zero. These are the body's stored values read at an index:
  a lane sum over axis 1 is the sum over that axis's coordinate, everything else is pointwise.
-/
import proofs.«171753_j28011776704955_1_alg».proof.Proof.Gen.KernelIdeal.Skeleton
import proofs.«171753_j28011776704955_1_alg».proof.Proof.Spec
import Idealize.ShloMosaic.Lib.Pipeline.Value

noncomputable section

namespace Cert.KernelIdeal.Tile

open Idealize.ShloMosaic Idealize.ShloMosaic.ValueIdx Cert.KernelIdeal Cert.KernelIdeal.Gen RowLoss
open scoped BigOperators

/-- Inserting column k into the row index y gives the entry (y, k). -/
theorem lift_eq (h : S512x1024.Reduces [1] S512) (y : Fin 512) (k : Fin 1024) : h.lift (ix1 y) k = ix2 y k := by
  funext a
  match a with
  | ⟨0, _⟩ => exact Fin.ext rfl
  | ⟨1, _⟩ => exact Fin.ext rfl

/-- A lane sum of a tile along its columns, at row y: the sum over the 1024 columns. -/
theorem rowsum (src : FVec Ideal S512x1024 .f32) (h : S512x1024.Reduces [1] S512) (hφ : FKind.Formats .f32)
    (hacc : (0x00000000#32 : BitVec 32) = FKind.add.neutral .f32 hφ) (y : Fin 512) :
    multiReduction .add [1] S512 src 0x00000000#32 h hφ hacc (ix1 y) = ∑ k : Fin 1024, src (ix2 y k) := by
  refine (Ideal.multiReduction_add_single src _ h hφ hacc (ix1 y)).trans ?_
  exact Finset.sum_congr rfl fun k _ => congrArg src (lift_eq h y k)

variable (x0 : Vec Ideal S512x1024 .f32) (x1 : Vec Ideal S512x1024 .i32) (a : Vec Ideal S512 .f32) (y : Fin 512)

/-- The tile's mask bit at (y, k). -/
abbrev bit (k : Fin 1024) : BitVec 1 := IntOp.cmpi .ne (x1 (ix2 y k)) 0#32

/-- The count of set bits. -/
theorem pay8_apply :
    k0_pay8 (F := Ideal) x1 a (ix1 y) = a (ix1 y) + ∑ k : Fin 1024, ind (bit x1 y k) := by
  unfold k0_pay8 k0_pay7 k0_pay6
  dsimp only
  rw [shapeCast_self]
  refine (addf_apply _ _ _).trans ?_
  refine congrArg (a (ix1 y) + ·) ?_
  exact rowsum _ _ _ _ y

/-- The count of clear bits: 1024 minus the tile's set bits. -/
theorem pay9_apply :
    k0_pay9 (F := Ideal) x1 a (ix1 y)
      = a (ix1 y) + (Ideal.ofBits .f32 0x44800000#32 - ∑ k : Fin 1024, ind (bit x1 y k)) := by
  unfold k0_pay9 k0_pay7 k0_pay6
  dsimp only
  rw [shapeCast_self]
  refine (addf_apply _ _ _).trans ?_
  refine congrArg (a (ix1 y) + ·) ?_
  refine (subf_apply _ _ _).trans ?_
  refine congrArg (Ideal.ofBits .f32 0x44800000#32 - ·) ?_
  exact rowsum _ _ _ _ y

/-- The target sum. -/
theorem pay10_apply :
    k0_pay10 (F := Ideal) x0 x1 a (ix1 y) = a (ix1 y) + ∑ k : Fin 1024, tgt (bit x1 y k) (x0 (ix2 y k)) := by
  unfold k0_pay10 k0_pay6
  dsimp only
  rw [shapeCast_self]
  refine (addf_apply _ _ _).trans ?_
  refine congrArg (a (ix1 y) + ·) ?_
  exact rowsum _ _ _ _ y

/-- The non-target sum (the body's stored value over the tile's bits and its zero splat). -/
theorem pay1_apply :
    k0_pay1 (F := Ideal) x0 (k0_pay6 x1) (k0_pay11 (F := Ideal)) a (ix1 y)
      = a (ix1 y) + ∑ k : Fin 1024, non (bit x1 y k) (x0 (ix2 y k)) := by
  unfold k0_pay1 k0_pay6 k0_pay11
  dsimp only
  rw [shapeCast_self]
  refine (addf_apply _ _ _).trans ?_
  refine congrArg (a (ix1 y) + ·) ?_
  exact rowsum _ _ _ _ y

/-- The four vectors a row block's first point stores before it accumulates are zero. -/
theorem pay2_apply : k0_pay2 (F := Ideal) (ix1 y) = 0 := by
  unfold k0_pay2; rw [shapeCast_self]; exact Ideal.ofBits_zero_f32
theorem pay3_apply : k0_pay3 (F := Ideal) (ix1 y) = 0 := by
  unfold k0_pay3; rw [shapeCast_self]; exact Ideal.ofBits_zero_f32
theorem pay4_apply : k0_pay4 (F := Ideal) (ix1 y) = 0 := by
  unfold k0_pay4; rw [shapeCast_self]; exact Ideal.ofBits_zero_f32
theorem pay5_apply : k0_pay5 (F := Ideal) (ix1 y) = 0 := by
  unfold k0_pay5; rw [shapeCast_self]; exact Ideal.ofBits_zero_f32

end Cert.KernelIdeal.Tile

end
-- ==== Proof.Blocks.lean ====
/-
  Which entries of the two argument arrays a grid point's tiles are.

  The grid is 8 row blocks × 8 column tiles, walked row block by row block: point t is row block t / 8, column tile t % 8.
  Its score tile and its mask tile are the [512 × 1024] blocks (t / 8, t % 8) of the two [4096 × 8192] arrays, so entry
  (y, k) of a tile is entry (512 · (t / 8) + y, 1024 · (t % 8) + k) of its array; and each of the four outputs' [512]
  block at t is block t / 8 of its [4096] vector.
-/
import proofs.«171753_j28011776704955_1_alg».proof.Proof.Gen.KernelIdeal.Frame
import proofs.«171753_j28011776704955_1_alg».proof.Proof.Spec
import Idealize.ShloMosaic.Lib.Pipeline.Value

noncomputable section

namespace Cert.KernelIdeal.Blocks

open Idealize.ShloMosaic Idealize.ShloMosaic.TcCoe Idealize.ShloMosaic.ValueIdx Idealize.SL.Sem
open Cert.KernelIdeal Cert.KernelIdeal.Gen RowLoss

variable (m : (ℓ : Loc nD τ sig) → Buf (Elt Ideal) ℓ)

/-- The score array and the mask array as the region finds them, and a point's two tiles. -/
abbrev xarr (c : Dev nD) : Vec Ideal S4096x8192 .f32 := V m c main_arg0
abbrev marr (c : Dev nD) : Vec Ideal S4096x8192 .i32 := V m c main_arg1
abbrev xblk (c : Dev nD) (t : Fin cfg0.N) : Vec Ideal S512x1024 .f32 := iblk m c 0 t
abbrev mblk (c : Dev nD) (t : Fin cfg0.N) : Vec Ideal S512x1024 .i32 := iblk m c 1 t

theorem xarr_eq (c : Dev nD) : xarr m c = m ((c : Thread nD τ).loc main_arg0) := V_main_arg0 m c
theorem marr_eq (c : Dev nD) : marr m c = m ((c : Thread nD τ).loc main_arg1) := V_main_arg1 m c

/-- The printed index maps over the 64 points: the inputs' block is (t / 8, t % 8), every output's is t / 8. -/
theorem idx_facts : ∀ t : Fin cfg0.N,
    win0_0.index t (0 : Fin 2) = t.val / 8 ∧ win0_0.index t (1 : Fin 2) = t.val % 8
    ∧ win0_1.index t (0 : Fin 2) = t.val / 8 ∧ win0_1.index t (1 : Fin 2) = t.val % 8
    ∧ win0_2.index t (0 : Fin 1) = t.val / 8 ∧ win0_3.index t (0 : Fin 1) = t.val / 8
    ∧ win0_4.index t (0 : Fin 1) = t.val / 8 ∧ win0_5.index t (0 : Fin 1) = t.val / 8 :=
  (by decide +kernel : ∀ t : Fin grid0.N, _)

theorem t_lt (t : Fin cfg0.N) : t.val < 64 := lt_of_lt_of_eq t.isLt N_0

/-- Entry (y, k) of the score tile at point t. -/
theorem xblk_apply (c : Dev nD) (t : Fin cfg0.N) (y : Fin 512) (k : Fin 1024) :
    xblk m c t (ix2 y k) = valAt (xarr m c) (512 * (t.val / 8) + y.val) (1024 * (t.val % 8) + k.val) := by
  have ht := t_lt t
  have hr : 512 * (t.val / 8) + y.val < 4096 := by omega
  have hq : 1024 * (t.val % 8) + k.val < 8192 := by omega
  rw [valAt_of_lt _ hr hq]
  obtain ⟨e0, e1, -⟩ := idx_facts t
  show V m c main_arg0 (((cfg0.win 0).blk t).view.emb (ix2 y k)) = V m c main_arg0 _
  refine congrArg (V m c main_arg0) (funext fun a => Fin.ext ?_)
  match a with
  | ⟨0, _⟩ => show win0_0.index t (0 : Fin 2) * 512 + 1 * y.val = 512 * (t.val / 8) + y.val; omega
  | ⟨1, _⟩ => show win0_0.index t (1 : Fin 2) * 1024 + 1 * k.val = 1024 * (t.val % 8) + k.val; omega

/-- The mask bit of entry (y, k) of the mask tile at point t. -/
theorem mblk_bit (c : Dev nD) (t : Fin cfg0.N) (y : Fin 512) (k : Fin 1024) :
    IntOp.cmpi .ne (mblk m c t (ix2 y k)) 0#32
      = bitAt (marr m c) (512 * (t.val / 8) + y.val) (1024 * (t.val % 8) + k.val) := by
  have ht := t_lt t
  have hr : 512 * (t.val / 8) + y.val < 4096 := by omega
  have hq : 1024 * (t.val % 8) + k.val < 8192 := by omega
  rw [bitAt_of_lt _ hr hq]
  obtain ⟨-, -, e0, e1, -⟩ := idx_facts t
  show IntOp.cmpi .ne (V m c main_arg1 (((cfg0.win 1).blk t).view.emb (ix2 y k))) 0#32 = IntOp.cmpi .ne (V m c main_arg1 _) 0#32
  refine congrArg (fun i => IntOp.cmpi .ne (V m c main_arg1 i) 0#32) (funext fun a => Fin.ext ?_)
  match a with
  | ⟨0, _⟩ => show win0_1.index t (0 : Fin 2) * 512 + 1 * y.val = 512 * (t.val / 8) + y.val; omega
  | ⟨1, _⟩ => show win0_1.index t (1 : Fin 2) * 1024 + 1 * k.val = 1024 * (t.val % 8) + k.val; omega

end Cert.KernelIdeal.Blocks

end
-- ==== Proof.Accum.lean ====
/-
  What the four accumulators hold after every grid point, and what a row block's last point stores to the outputs.

  Point t is row block t / 8, column tile t % 8. By the three cases of the body, each accumulator after t is: zero plus the
  tile's sum when t % 8 = 0, and what the point before left plus the tile's sum otherwise. So after t, row y of an
  accumulator is the running sum, over the column tiles 0 … t % 8 of row block t / 8, of the entries' terms in array row
  512 · (t / 8) + y (the restart-and-add law of the specification); at t % 8 = 7 that is the whole row's statistic, and
  it is what the point stores to the four output blocks.
-/
import proofs.«171753_j28011776704955_1_alg».proof.Proof.Pieces
import proofs.«171753_j28011776704955_1_alg».proof.Proof.Tile
import proofs.«171753_j28011776704955_1_alg».proof.Proof.Blocks

set_option maxRecDepth 16384

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Blocks RowLoss
open scoped BigOperators

variable (m : (ℓ : Loc nD τ sig) → Buf (Elt Ideal) ℓ) (c : Dev nD)

/-- The four accumulators and the four output blocks after point t. -/
abbrev acc0 (n : ℕ) (h : n < cfg0.N) : Vec Ideal S512 .f32 := (outsAt0 m c n h).2.2.2.2.1
abbrev acc1 (n : ℕ) (h : n < cfg0.N) : Vec Ideal S512 .f32 := (outsAt0 m c n h).2.2.2.2.2.1
abbrev acc2 (n : ℕ) (h : n < cfg0.N) : Vec Ideal S512 .f32 := (outsAt0 m c n h).2.2.2.2.2.2.1
abbrev acc3 (n : ℕ) (h : n < cfg0.N) : Vec Ideal S512 .f32 := (outsAt0 m c n h).2.2.2.2.2.2.2
abbrev out2 (n : ℕ) (h : n < cfg0.N) : Vec Ideal S512 .f32 := (outsAt0 m c n h).1
abbrev out3 (n : ℕ) (h : n < cfg0.N) : Vec Ideal S512 .f32 := (outsAt0 m c n h).2.1
abbrev out4 (n : ℕ) (h : n < cfg0.N) : Vec Ideal S512 .f32 := (outsAt0 m c n h).2.2.1
abbrev out5 (n : ℕ) (h : n < cfg0.N) : Vec Ideal S512 .f32 := (outsAt0 m c n h).2.2.2.1

/-- The point before t (when t is not a row block's first point). -/
theorem pred_lt (t : Fin cfg0.N) : t.val - 1 < cfg0.N := Nat.lt_of_le_of_lt (Nat.sub_le _ _) t.isLt

/-! ## The three cases, accumulator by accumulator -/

section first

theorem acc0_first (t : Fin cfg0.N) (h0 : t.val % 8 = 0) (h1 : ¬t.val % 8 = 7) : acc0 m c t.val t.isLt = k0_pay8 (mblk m c t) (k0_pay2 (F := Ideal)) := by
  show (outsAt0 m c t.val t.isLt).2.2.2.2.1 = _
  rw [outsAt0_A m c t h0 h1]; dsimp only
  exact Pieces.scrA0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t)

theorem acc1_first (t : Fin cfg0.N) (h0 : t.val % 8 = 0) (h1 : ¬t.val % 8 = 7) : acc1 m c t.val t.isLt = k0_pay9 (mblk m c t) (k0_pay3 (F := Ideal)) := by
  show (outsAt0 m c t.val t.isLt).2.2.2.2.2.1 = _
  rw [outsAt0_A m c t h0 h1]; dsimp only
  exact Pieces.scrA1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t)

theorem acc2_first (t : Fin cfg0.N) (h0 : t.val % 8 = 0) (h1 : ¬t.val % 8 = 7) : acc2 m c t.val t.isLt = k0_pay10 (xblk m c t) (mblk m c t) (k0_pay4 (F := Ideal)) := by
  show (outsAt0 m c t.val t.isLt).2.2.2.2.2.2.1 = _
  rw [outsAt0_A m c t h0 h1]; dsimp only
  exact Pieces.scrA2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t)

theorem acc3_first (t : Fin cfg0.N) (h0 : t.val % 8 = 0) (h1 : ¬t.val % 8 = 7) : acc3 m c t.val t.isLt
    = k0_pay1 (xblk m c t) (k0_pay6 (mblk m c t)) (k0_pay11 (F := Ideal)) (k0_pay5 (F := Ideal)) := by
  show (outsAt0 m c t.val t.isLt).2.2.2.2.2.2.2 = _
  rw [outsAt0_A m c t h0 h1]; dsimp only
  exact Pieces.scrA3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (fun h => h1 ((hcond0_1 t).mp h)) (iblk m c 0 t) (iblk m c 1 t)

end first

section middle

theorem acc0_middle (t : Fin cfg0.N) (h0 : ¬t.val % 8 = 0) (h1 : ¬t.val % 8 = 7) : acc0 m c t.val t.isLt = k0_pay8 (mblk m c t) (acc0 m c (t.val - 1) (pred_lt t)) := by
  show (outsAt0 m c t.val t.isLt).2.2.2.2.1 = _
  rw [outsAt0_B m c t h0 h1]; dsimp only
  exact Pieces.scrB0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) (iblk m c 0 t) (iblk m c 1 t) (acc0 m c (t.val - 1) (pred_lt t)) (acc1 m c (t.val - 1) (pred_lt t)) (acc2 m c (t.val - 1) (pred_lt t)) (acc3 m c (t.val - 1) (pred_lt t))

theorem acc1_middle (t : Fin cfg0.N) (h0 : ¬t.val % 8 = 0) (h1 : ¬t.val % 8 = 7) : acc1 m c t.val t.isLt = k0_pay9 (mblk m c t) (acc1 m c (t.val - 1) (pred_lt t)) := by
  show (outsAt0 m c t.val t.isLt).2.2.2.2.2.1 = _
  rw [outsAt0_B m c t h0 h1]; dsimp only
  exact Pieces.scrB1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) (iblk m c 0 t) (iblk m c 1 t) (acc0 m c (t.val - 1) (pred_lt t)) (acc1 m c (t.val - 1) (pred_lt t)) (acc2 m c (t.val - 1) (pred_lt t)) (acc3 m c (t.val - 1) (pred_lt t))

theorem acc2_middle (t : Fin cfg0.N) (h0 : ¬t.val % 8 = 0) (h1 : ¬t.val % 8 = 7) : acc2 m c t.val t.isLt = k0_pay10 (xblk m c t) (mblk m c t) (acc2 m c (t.val - 1) (pred_lt t)) := by
  show (outsAt0 m c t.val t.isLt).2.2.2.2.2.2.1 = _
  rw [outsAt0_B m c t h0 h1]; dsimp only
  exact Pieces.scrB2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) (iblk m c 0 t) (iblk m c 1 t) (acc0 m c (t.val - 1) (pred_lt t)) (acc1 m c (t.val - 1) (pred_lt t)) (acc2 m c (t.val - 1) (pred_lt t)) (acc3 m c (t.val - 1) (pred_lt t))

theorem acc3_middle (t : Fin cfg0.N) (h0 : ¬t.val % 8 = 0) (h1 : ¬t.val % 8 = 7) : acc3 m c t.val t.isLt
    = k0_pay1 (xblk m c t) (k0_pay6 (mblk m c t)) (k0_pay11 (F := Ideal)) (acc3 m c (t.val - 1) (pred_lt t)) := by
  show (outsAt0 m c t.val t.isLt).2.2.2.2.2.2.2 = _
  rw [outsAt0_B m c t h0 h1]; dsimp only
  exact Pieces.scrB3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (fun h => h1 ((hcond0_1 t).mp h)) (iblk m c 0 t) (iblk m c 1 t) (acc0 m c (t.val - 1) (pred_lt t)) (acc1 m c (t.val - 1) (pred_lt t)) (acc2 m c (t.val - 1) (pred_lt t)) (acc3 m c (t.val - 1) (pred_lt t))

end middle

section last

theorem acc0_last (t : Fin cfg0.N) (h0 : ¬t.val % 8 = 0) (h1 : t.val % 8 = 7) : acc0 m c t.val t.isLt = k0_pay8 (mblk m c t) (acc0 m c (t.val - 1) (pred_lt t)) := by
  show (outsAt0 m c t.val t.isLt).2.2.2.2.1 = _
  rw [outsAt0_C m c t h0 h1]; dsimp only
  exact Pieces.scrC0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem acc1_last (t : Fin cfg0.N) (h0 : ¬t.val % 8 = 0) (h1 : t.val % 8 = 7) : acc1 m c t.val t.isLt = k0_pay9 (mblk m c t) (acc1 m c (t.val - 1) (pred_lt t)) := by
  show (outsAt0 m c t.val t.isLt).2.2.2.2.2.1 = _
  rw [outsAt0_C m c t h0 h1]; dsimp only
  exact Pieces.scrC1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem acc2_last (t : Fin cfg0.N) (h0 : ¬t.val % 8 = 0) (h1 : t.val % 8 = 7) : acc2 m c t.val t.isLt = k0_pay10 (xblk m c t) (mblk m c t) (acc2 m c (t.val - 1) (pred_lt t)) := by
  show (outsAt0 m c t.val t.isLt).2.2.2.2.2.2.1 = _
  rw [outsAt0_C m c t h0 h1]; dsimp only
  exact Pieces.scrC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem acc3_last (t : Fin cfg0.N) (h0 : ¬t.val % 8 = 0) (h1 : t.val % 8 = 7) : acc3 m c t.val t.isLt
    = k0_pay1 (xblk m c t) (k0_pay6 (mblk m c t)) (k0_pay11 (F := Ideal)) (acc3 m c (t.val - 1) (pred_lt t)) := by
  show (outsAt0 m c t.val t.isLt).2.2.2.2.2.2.2 = _
  rw [outsAt0_C m c t h0 h1]; dsimp only
  exact Pieces.scrC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

/-- At a row block's last point each output block is the accumulator as the point leaves it. -/
theorem out2_last (t : Fin cfg0.N) (h0 : ¬t.val % 8 = 0) (h1 : t.val % 8 = 7) : out2 m c t.val t.isLt = acc0 m c t.val t.isLt := by
  rw [acc0_last m c t h0 h1]
  show (outsAt0 m c t.val t.isLt).1 = _
  rw [outsAt0_C m c t h0 h1]; dsimp only
  exact Pieces.outC2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem out3_last (t : Fin cfg0.N) (h0 : ¬t.val % 8 = 0) (h1 : t.val % 8 = 7) : out3 m c t.val t.isLt = acc1 m c t.val t.isLt := by
  rw [acc1_last m c t h0 h1]
  show (outsAt0 m c t.val t.isLt).2.1 = _
  rw [outsAt0_C m c t h0 h1]; dsimp only
  exact Pieces.outC3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem out4_last (t : Fin cfg0.N) (h0 : ¬t.val % 8 = 0) (h1 : t.val % 8 = 7) : out4 m c t.val t.isLt = acc2 m c t.val t.isLt := by
  rw [acc2_last m c t h0 h1]
  show (outsAt0 m c t.val t.isLt).2.2.1 = _
  rw [outsAt0_C m c t h0 h1]; dsimp only
  exact Pieces.outC4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

theorem out5_last (t : Fin cfg0.N) (h0 : ¬t.val % 8 = 0) (h1 : t.val % 8 = 7) : out5 m c t.val t.isLt = acc3 m c t.val t.isLt := by
  rw [acc3_last m c t h0 h1]
  show (outsAt0 m c t.val t.isLt).2.2.2.1 = _
  rw [outsAt0_C m c t h0 h1]; dsimp only
  exact Pieces.outC5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) ((hcond0_1 t).mpr h1) (iblk m c 0 t) (iblk m c 1 t) (acc0 m c (t.val - 1) (pred_lt t)) (acc1 m c (t.val - 1) (pred_lt t)) (acc2 m c (t.val - 1) (pred_lt t)) (acc3 m c (t.val - 1) (pred_lt t))

end last

/-! ## The running sums -/

section sums
variable (y : Fin 512)

/-- The terms of array row 512 · b + y by column q, for the four statistics. -/
def g0 (b q : ℕ) : EReal := ind (bitAt (marr m c) (512 * b + y.val) q)
def g1 (b q : ℕ) : EReal := ind (~~~bitAt (marr m c) (512 * b + y.val) q)
def g2 (b q : ℕ) : EReal := tgt (bitAt (marr m c) (512 * b + y.val) q) (valAt (xarr m c) (512 * b + y.val) q)
def g3 (b q : ℕ) : EReal := non (bitAt (marr m c) (512 * b + y.val) q) (valAt (xarr m c) (512 * b + y.val) q)

/-- Row y of the four accumulators after position n. -/
def s0 (n : ℕ) : EReal := if h : n < cfg0.N then acc0 m c n h (ix1 y) else 0
def s1 (n : ℕ) : EReal := if h : n < cfg0.N then acc1 m c n h (ix1 y) else 0
def s2 (n : ℕ) : EReal := if h : n < cfg0.N then acc2 m c n h (ix1 y) else 0
def s3 (n : ℕ) : EReal := if h : n < cfg0.N then acc3 m c n h (ix1 y) else 0

theorem s0_of_lt {n : ℕ} (h : n < cfg0.N) : s0 m c y n = acc0 m c n h (ix1 y) := dif_pos h
theorem s1_of_lt {n : ℕ} (h : n < cfg0.N) : s1 m c y n = acc1 m c n h (ix1 y) := dif_pos h
theorem s2_of_lt {n : ℕ} (h : n < cfg0.N) : s2 m c y n = acc2 m c n h (ix1 y) := dif_pos h
theorem s3_of_lt {n : ℕ} (h : n < cfg0.N) : s3 m c y n = acc3 m c n h (ix1 y) := dif_pos h

/-- One tile's sums, entry by entry in the arrays' coordinates. -/
theorem tile0 (t : Fin cfg0.N) : ∑ k : Fin 1024, ind (Tile.bit (mblk m c t) y k)
    = ∑ k : Fin 1024, g0 m c y (t.val / 8) (1024 * (t.val % 8) + k.val) :=
  Finset.sum_congr rfl fun k _ => congrArg ind (mblk_bit m c t y k)

theorem tile1 (t : Fin cfg0.N) : Ideal.ofBits .f32 0x44800000#32 - ∑ k : Fin 1024, ind (Tile.bit (mblk m c t) y k)
    = ∑ k : Fin 1024, g1 m c y (t.val / 8) (1024 * (t.val % 8) + k.val) :=
  (tile_compl fun k => Tile.bit (mblk m c t) y k).trans
    (Finset.sum_congr rfl fun k _ => congrArg (fun b => ind (~~~b)) (mblk_bit m c t y k))

theorem tile2 (t : Fin cfg0.N) : ∑ k : Fin 1024, tgt (Tile.bit (mblk m c t) y k) (xblk m c t (ix2 y k))
    = ∑ k : Fin 1024, g2 m c y (t.val / 8) (1024 * (t.val % 8) + k.val) :=
  Finset.sum_congr rfl fun k _ => congrArg₂ tgt (mblk_bit m c t y k) (xblk_apply m c t y k)

theorem tile3 (t : Fin cfg0.N) : ∑ k : Fin 1024, non (Tile.bit (mblk m c t) y k) (xblk m c t (ix2 y k))
    = ∑ k : Fin 1024, g3 m c y (t.val / 8) (1024 * (t.val % 8) + k.val) :=
  Finset.sum_congr rfl fun k _ => congrArg₂ non (mblk_bit m c t y k) (xblk_apply m c t y k)

/-- After a point that is not a row block's first, an accumulator is its update over the point before — whether the point
    is the row block's last or not. -/
theorem acc0_step (t : Fin cfg0.N) (h0 : ¬t.val % 8 = 0) :
    acc0 m c t.val t.isLt = k0_pay8 (mblk m c t) (acc0 m c (t.val - 1) (pred_lt t)) := by
  by_cases h1 : t.val % 8 = 7
  · exact acc0_last m c t h0 h1
  · exact acc0_middle m c t h0 h1
theorem acc1_step (t : Fin cfg0.N) (h0 : ¬t.val % 8 = 0) :
    acc1 m c t.val t.isLt = k0_pay9 (mblk m c t) (acc1 m c (t.val - 1) (pred_lt t)) := by
  by_cases h1 : t.val % 8 = 7
  · exact acc1_last m c t h0 h1
  · exact acc1_middle m c t h0 h1
theorem acc2_step (t : Fin cfg0.N) (h0 : ¬t.val % 8 = 0) :
    acc2 m c t.val t.isLt = k0_pay10 (xblk m c t) (mblk m c t) (acc2 m c (t.val - 1) (pred_lt t)) := by
  by_cases h1 : t.val % 8 = 7
  · exact acc2_last m c t h0 h1
  · exact acc2_middle m c t h0 h1
theorem acc3_step (t : Fin cfg0.N) (h0 : ¬t.val % 8 = 0) :
    acc3 m c t.val t.isLt
      = k0_pay1 (xblk m c t) (k0_pay6 (mblk m c t)) (k0_pay11 (F := Ideal)) (acc3 m c (t.val - 1) (pred_lt t)) := by
  by_cases h1 : t.val % 8 = 7
  · exact acc3_last m c t h0 h1
  · exact acc3_middle m c t h0 h1

/-- Row y of each accumulator after point t: the running sum over the column tiles 0 … t % 8 of row block t / 8. -/
theorem acc0_eq (t : Fin cfg0.N) : acc0 m c t.val t.isLt (ix1 y) = part (g0 m c y (t.val / 8)) (t.val % 8) := by
  rw [← s0_of_lt m c y t.isLt]
  refine acc_eq_part (s0 m c y) (g0 m c y) cfg0.N (fun n hn h0 => ?_) (fun n hn h0 => ?_) t.val t.isLt
  · rw [s0_of_lt m c y hn, acc0_first m c ⟨n, hn⟩ h0 (by show ¬n % 8 = 7; omega), Tile.pay8_apply, Tile.pay2_apply]
    exact congrArg (0 + ·) (tile0 m c y ⟨n, hn⟩)
  · rw [s0_of_lt m c y hn, acc0_step m c ⟨n, hn⟩ h0, Tile.pay8_apply, s0_of_lt m c y (pred_lt ⟨n, hn⟩)]
    exact congrArg (_ + ·) (tile0 m c y ⟨n, hn⟩)

theorem acc1_eq (t : Fin cfg0.N) : acc1 m c t.val t.isLt (ix1 y) = part (g1 m c y (t.val / 8)) (t.val % 8) := by
  rw [← s1_of_lt m c y t.isLt]
  refine acc_eq_part (s1 m c y) (g1 m c y) cfg0.N (fun n hn h0 => ?_) (fun n hn h0 => ?_) t.val t.isLt
  · rw [s1_of_lt m c y hn, acc1_first m c ⟨n, hn⟩ h0 (by show ¬n % 8 = 7; omega), Tile.pay9_apply, Tile.pay3_apply]
    exact congrArg (0 + ·) (tile1 m c y ⟨n, hn⟩)
  · rw [s1_of_lt m c y hn, acc1_step m c ⟨n, hn⟩ h0, Tile.pay9_apply, s1_of_lt m c y (pred_lt ⟨n, hn⟩)]
    exact congrArg (_ + ·) (tile1 m c y ⟨n, hn⟩)

theorem acc2_eq (t : Fin cfg0.N) : acc2 m c t.val t.isLt (ix1 y) = part (g2 m c y (t.val / 8)) (t.val % 8) := by
  rw [← s2_of_lt m c y t.isLt]
  refine acc_eq_part (s2 m c y) (g2 m c y) cfg0.N (fun n hn h0 => ?_) (fun n hn h0 => ?_) t.val t.isLt
  · rw [s2_of_lt m c y hn, acc2_first m c ⟨n, hn⟩ h0 (by show ¬n % 8 = 7; omega), Tile.pay10_apply, Tile.pay4_apply]
    exact congrArg (0 + ·) (tile2 m c y ⟨n, hn⟩)
  · rw [s2_of_lt m c y hn, acc2_step m c ⟨n, hn⟩ h0, Tile.pay10_apply, s2_of_lt m c y (pred_lt ⟨n, hn⟩)]
    exact congrArg (_ + ·) (tile2 m c y ⟨n, hn⟩)

theorem acc3_eq (t : Fin cfg0.N) : acc3 m c t.val t.isLt (ix1 y) = part (g3 m c y (t.val / 8)) (t.val % 8) := by
  rw [← s3_of_lt m c y t.isLt]
  refine acc_eq_part (s3 m c y) (g3 m c y) cfg0.N (fun n hn h0 => ?_) (fun n hn h0 => ?_) t.val t.isLt
  · rw [s3_of_lt m c y hn, acc3_first m c ⟨n, hn⟩ h0 (by show ¬n % 8 = 7; omega), Tile.pay1_apply, Tile.pay5_apply]
    exact congrArg (0 + ·) (tile3 m c y ⟨n, hn⟩)
  · rw [s3_of_lt m c y hn, acc3_step m c ⟨n, hn⟩ h0, Tile.pay1_apply, s3_of_lt m c y (pred_lt ⟨n, hn⟩)]
    exact congrArg (_ + ·) (tile3 m c y ⟨n, hn⟩)

/-- At a row block's last point the four output blocks hold, at row y, the four statistics of array row 512 · (t / 8) + y. -/
theorem out2_eq (t : Fin cfg0.N) (h1 : t.val % 8 = 7) :
    out2 m c t.val t.isLt (ix1 y) = cntT (marr m c) (512 * (t.val / 8) + y.val) := by
  rw [out2_last m c t (by omega) h1, acc0_eq m c y t, h1, part_seven]; rfl
theorem out3_eq (t : Fin cfg0.N) (h1 : t.val % 8 = 7) :
    out3 m c t.val t.isLt (ix1 y) = cntN (marr m c) (512 * (t.val / 8) + y.val) := by
  rw [out3_last m c t (by omega) h1, acc1_eq m c y t, h1, part_seven]; rfl
theorem out4_eq (t : Fin cfg0.N) (h1 : t.val % 8 = 7) :
    out4 m c t.val t.isLt (ix1 y) = sumT (xarr m c) (marr m c) (512 * (t.val / 8) + y.val) := by
  rw [out4_last m c t (by omega) h1, acc2_eq m c y t, h1, part_seven]; rfl
theorem out5_eq (t : Fin cfg0.N) (h1 : t.val % 8 = 7) :
    out5 m c t.val t.isLt (ix1 y) = sumN (xarr m c) (marr m c) (512 * (t.val / 8) + y.val) := by
  rw [out5_last m c t (by omega) h1, acc3_eq m c y t, h1, part_seven]; rfl

end sums

end Cert.KernelIdeal.Accum

end
-- ==== Proof.Final.lean ====
/-
  The kernel's run, read: its three results are the shared host tail of the four row statistics of its argument arrays.

  Each of the four [4096] output vectors is written back only at a row block's last point (t % 8 = 7), 512 rows at a time:
  what point t writes to output rows 512 · (t / 8) … 512 · (t / 8) + 511 is the four accumulators' final contents, that is
  the four statistics of those array rows. The eight last points' blocks tile each output vector (row r lies in the block
  of the point 8 · (r / 512) + 7), so after the region the four vectors are cntTv, cntNv, sumTv, sumNv of the argument
  arrays; the host lines after the region then apply the shared tail to them.
-/
import proofs.«171753_j28011776704955_1_alg».proof.Proof.Accum
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Blocks Cert.KernelIdeal.Accum RowLoss
open Idealize.ShloMosaic.Pipeline (Dat)

variable (m : (ℓ : Loc nD τ sig) → Buf (Elt Ideal) ℓ) (ρ : Dev nD → PrngReg)

/-! ## What a row block's last point writes back -/

theorem flushed2_eq (c : Dev nD) (t : Fin cfg0.N) (hf : (cfg0.win 2).flush t = true) :
    (dats m 0 c).flushed 2 t = ((cfg0.win 2).blk t).view.read (Elt Ideal) (cntTv (marr m c)) := by
  have h7 : t.val % 8 = 7 := (flush0_2 t).mp hf
  obtain ⟨-, -, -, -, e, -⟩ := idx_facts t
  show (cfg0.win 2).cut (grid0.coords t) ((dats m 0 c).after 2 t) = _
  rw [after0_2]
  funext j
  obtain ⟨y, rfl⟩ : ∃ y : Fin 512, j = ix1 y := ⟨j 0, eq_ix1 j⟩
  show out2 m c t.val t.isLt (ix1 y) = cntT (marr m c) ((((cfg0.win 2).blk t).view.emb (ix1 y)) 0).val
  rw [out2_eq m c y t h7]
  refine congrArg (cntT (marr m c)) ?_
  show 512 * (t.val / 8) + y.val = win0_2.index t (0 : Fin 1) * 512 + 1 * y.val
  omega

theorem flushed3_eq (c : Dev nD) (t : Fin cfg0.N) (hf : (cfg0.win 3).flush t = true) :
    (dats m 0 c).flushed 3 t = ((cfg0.win 3).blk t).view.read (Elt Ideal) (cntNv (marr m c)) := by
  have h7 : t.val % 8 = 7 := (flush0_3 t).mp hf
  obtain ⟨-, -, -, -, -, e, -⟩ := idx_facts t
  show (cfg0.win 3).cut (grid0.coords t) ((dats m 0 c).after 3 t) = _
  rw [after0_3]
  funext j
  obtain ⟨y, rfl⟩ : ∃ y : Fin 512, j = ix1 y := ⟨j 0, eq_ix1 j⟩
  show out3 m c t.val t.isLt (ix1 y) = cntN (marr m c) ((((cfg0.win 3).blk t).view.emb (ix1 y)) 0).val
  rw [out3_eq m c y t h7]
  refine congrArg (cntN (marr m c)) ?_
  show 512 * (t.val / 8) + y.val = win0_3.index t (0 : Fin 1) * 512 + 1 * y.val
  omega

theorem flushed4_eq (c : Dev nD) (t : Fin cfg0.N) (hf : (cfg0.win 4).flush t = true) :
    (dats m 0 c).flushed 4 t = ((cfg0.win 4).blk t).view.read (Elt Ideal) (sumTv (xarr m c) (marr m c)) := by
  have h7 : t.val % 8 = 7 := (flush0_4 t).mp hf
  obtain ⟨-, -, -, -, -, -, e, -⟩ := idx_facts t
  show (cfg0.win 4).cut (grid0.coords t) ((dats m 0 c).after 4 t) = _
  rw [after0_4]
  funext j
  obtain ⟨y, rfl⟩ : ∃ y : Fin 512, j = ix1 y := ⟨j 0, eq_ix1 j⟩
  show out4 m c t.val t.isLt (ix1 y) = sumT (xarr m c) (marr m c) ((((cfg0.win 4).blk t).view.emb (ix1 y)) 0).val
  rw [out4_eq m c y t h7]
  refine congrArg (sumT (xarr m c) (marr m c)) ?_
  show 512 * (t.val / 8) + y.val = win0_4.index t (0 : Fin 1) * 512 + 1 * y.val
  omega

theorem flushed5_eq (c : Dev nD) (t : Fin cfg0.N) (hf : (cfg0.win 5).flush t = true) :
    (dats m 0 c).flushed 5 t = ((cfg0.win 5).blk t).view.read (Elt Ideal) (sumNv (xarr m c) (marr m c)) := by
  have h7 : t.val % 8 = 7 := (flush0_5 t).mp hf
  obtain ⟨-, -, -, -, -, -, -, e⟩ := idx_facts t
  show (cfg0.win 5).cut (grid0.coords t) ((dats m 0 c).after 5 t) = _
  rw [after0_5]
  funext j
  obtain ⟨y, rfl⟩ : ∃ y : Fin 512, j = ix1 y := ⟨j 0, eq_ix1 j⟩
  show out5 m c t.val t.isLt (ix1 y) = sumN (xarr m c) (marr m c) ((((cfg0.win 5).blk t).view.emb (ix1 y)) 0).val
  rw [out5_eq m c y t h7]
  refine congrArg (sumN (xarr m c) (marr m c)) ?_
  show 512 * (t.val / 8) + y.val = win0_5.index t (0 : Fin 1) * 512 + 1 * y.val
  omega

/-! ## The last points' blocks tile each output vector -/

/-- The last point of the row block that holds row r. -/
def lastPt (r : ℕ) (hr : r < 4096) : Fin cfg0.N := ⟨8 * (r / 512) + 7, by rw [show cfg0.N = 64 from N_0]; omega⟩

theorem cover2 (i : S4096.Idx) : ∃ t : Fin cfg0.N, (cfg0.win 2).flush t = true ∧ i ∈ ((cfg0.win 2).blk t).view.set := by
  have hi : (i 0).val < 4096 := (i 0).isLt
  refine ⟨lastPt (i 0).val hi, (flush0_2 _).mpr (by show (8 * ((i 0).val / 512) + 7) % 8 = 7; omega), ?_⟩
  obtain ⟨-, -, -, -, e, -⟩ := idx_facts (lastPt (i 0).val hi)
  have ev : (lastPt (i 0).val hi).val = 8 * ((i 0).val / 512) + 7 := rfl
  show i ∈ ((View.whole main_v0_0).slice (win0_2.rect (lastPt (i 0).val hi))).set
  rw [View.set_slice_whole, Rect.mem_set_unit]
  intro a
  match a with
  | ⟨0, _⟩ =>
    show win0_2.index (lastPt (i 0).val hi) (0 : Fin 1) * 512 ≤ (i 0).val ∧ (i 0).val < win0_2.index (lastPt (i 0).val hi) (0 : Fin 1) * 512 + 512
    omega

theorem cover3 (i : S4096.Idx) : ∃ t : Fin cfg0.N, (cfg0.win 3).flush t = true ∧ i ∈ ((cfg0.win 3).blk t).view.set := by
  have hi : (i 0).val < 4096 := (i 0).isLt
  refine ⟨lastPt (i 0).val hi, (flush0_3 _).mpr (by show (8 * ((i 0).val / 512) + 7) % 8 = 7; omega), ?_⟩
  obtain ⟨-, -, -, -, -, e, -⟩ := idx_facts (lastPt (i 0).val hi)
  have ev : (lastPt (i 0).val hi).val = 8 * ((i 0).val / 512) + 7 := rfl
  show i ∈ ((View.whole main_v0_1).slice (win0_3.rect (lastPt (i 0).val hi))).set
  rw [View.set_slice_whole, Rect.mem_set_unit]
  intro a
  match a with
  | ⟨0, _⟩ =>
    show win0_3.index (lastPt (i 0).val hi) (0 : Fin 1) * 512 ≤ (i 0).val ∧ (i 0).val < win0_3.index (lastPt (i 0).val hi) (0 : Fin 1) * 512 + 512
    omega

theorem cover4 (i : S4096.Idx) : ∃ t : Fin cfg0.N, (cfg0.win 4).flush t = true ∧ i ∈ ((cfg0.win 4).blk t).view.set := by
  have hi : (i 0).val < 4096 := (i 0).isLt
  refine ⟨lastPt (i 0).val hi, (flush0_4 _).mpr (by show (8 * ((i 0).val / 512) + 7) % 8 = 7; omega), ?_⟩
  obtain ⟨-, -, -, -, -, -, e, -⟩ := idx_facts (lastPt (i 0).val hi)
  have ev : (lastPt (i 0).val hi).val = 8 * ((i 0).val / 512) + 7 := rfl
  show i ∈ ((View.whole main_v0_2).slice (win0_4.rect (lastPt (i 0).val hi))).set
  rw [View.set_slice_whole, Rect.mem_set_unit]
  intro a
  match a with
  | ⟨0, _⟩ =>
    show win0_4.index (lastPt (i 0).val hi) (0 : Fin 1) * 512 ≤ (i 0).val ∧ (i 0).val < win0_4.index (lastPt (i 0).val hi) (0 : Fin 1) * 512 + 512
    omega

theorem cover5 (i : S4096.Idx) : ∃ t : Fin cfg0.N, (cfg0.win 5).flush t = true ∧ i ∈ ((cfg0.win 5).blk t).view.set := by
  have hi : (i 0).val < 4096 := (i 0).isLt
  refine ⟨lastPt (i 0).val hi, (flush0_5 _).mpr (by show (8 * ((i 0).val / 512) + 7) % 8 = 7; omega), ?_⟩
  obtain ⟨-, -, -, -, -, -, -, e⟩ := idx_facts (lastPt (i 0).val hi)
  have ev : (lastPt (i 0).val hi).val = 8 * ((i 0).val / 512) + 7 := rfl
  show i ∈ ((View.whole main_v0_3).slice (win0_5.rect (lastPt (i 0).val hi))).set
  rw [View.set_slice_whole, Rect.mem_set_unit]
  intro a
  match a with
  | ⟨0, _⟩ =>
    show win0_5.index (lastPt (i 0).val hi) (0 : Fin 1) * 512 ≤ (i 0).val ∧ (i 0).val < win0_5.index (lastPt (i 0).val hi) (0 : Fin 1) * 512 + 512
    omega

/-! ## The four output vectors after the region -/

theorem final2 (c : Dev nD) : (dats m 0 c).arrAt 2 cfg0.N = cntTv (marr m c) :=
  (dats m 0 c).arrAt_eq_of_cover 2 (cntTv (marr m c)) (flushed2_eq m c) cover2
theorem final3 (c : Dev nD) : (dats m 0 c).arrAt 3 cfg0.N = cntNv (marr m c) :=
  (dats m 0 c).arrAt_eq_of_cover 3 (cntNv (marr m c)) (flushed3_eq m c) cover3
theorem final4 (c : Dev nD) : (dats m 0 c).arrAt 4 cfg0.N = sumTv (xarr m c) (marr m c) :=
  (dats m 0 c).arrAt_eq_of_cover 4 (sumTv (xarr m c) (marr m c)) (flushed4_eq m c) cover4
theorem final5 (c : Dev nD) : (dats m 0 c).arrAt 5 cfg0.N = sumNv (xarr m c) (marr m c) :=
  (dats m 0 c).arrAt_eq_of_cover 5 (sumNv (xarr m c) (marr m c)) (flushed5_eq m c) cover5

/-! ## The host lines after the region -/

/-- The core's buffers as the region leaves them: the pipeline's arrays at their final contents. -/
abbrev atExit (c : Dev nD) : Valuation τ sig (Elt Ideal) :=
  Pipeline.withArrays spec0 c (V0 m c) fun w => (dats m 0 c).arrAt w cfg0.N

theorem exit2 (c : Dev nD) : atExit m c (Proc.devRef .tc main_v0_0) = cntTv (marr m c) :=
  (Pipeline.withArrays_arr spec0 launch0.win.arr_inj c _ _ 2).trans (final2 m c)
theorem exit3 (c : Dev nD) : atExit m c (Proc.devRef .tc main_v0_1) = cntNv (marr m c) :=
  (Pipeline.withArrays_arr spec0 launch0.win.arr_inj c _ _ 3).trans (final3 m c)
theorem exit4 (c : Dev nD) : atExit m c (Proc.devRef .tc main_v0_2) = sumTv (xarr m c) (marr m c) :=
  (Pipeline.withArrays_arr spec0 launch0.win.arr_inj c _ _ 4).trans (final4 m c)
theorem exit5 (c : Dev nD) : atExit m c (Proc.devRef .tc main_v0_3) = sumNv (xarr m c) (marr m c) :=
  (Pipeline.withArrays_arr spec0 launch0.win.arr_inj c _ _ 5).trans (final5 m c)

/-- The mean of the target ratios, of the non-target ratios, and half their sum, as the tail leaves them. -/
theorem tail_v3 (c : Dev nD) : Pipeline.afterTail₀ cfgs (dats m) 0 (V0 m) [hostOps1] c main_v3
    = meanRatio (sumTv (xarr m c) (marr m c)) (cntTv (marr m c)) redRows posS0 := by
  unfold Pipeline.afterTail₀
  show StableHlo.after hostOps1 (atExit m c) (Proc.devRef .tc main_v3) = _
  after_results
  rw [exit4, exit2]
  rfl

theorem tail_v6 (c : Dev nD) : Pipeline.afterTail₀ cfgs (dats m) 0 (V0 m) [hostOps1] c main_v6
    = meanRatio (sumNv (xarr m c) (marr m c)) (cntNv (marr m c)) redRows posS0 := by
  unfold Pipeline.afterTail₀
  show StableHlo.after hostOps1 (atExit m c) (Proc.devRef .tc main_v6) = _
  after_results
  rw [exit5, exit3]
  rfl

theorem tail_v8 (c : Dev nD) : Pipeline.afterTail₀ cfgs (dats m) 0 (V0 m) [hostOps1] c main_v8
    = halfSum (meanRatio (sumTv (xarr m c) (marr m c)) (cntTv (marr m c)) redRows posS0)
        (meanRatio (sumNv (xarr m c) (marr m c)) (cntNv (marr m c)) redRows posS0) := by
  unfold Pipeline.afterTail₀
  show StableHlo.after hostOps1 (atExit m c) (Proc.devRef .tc main_v8) = _
  after_results
  rw [exit5, exit4, exit3, exit2]
  rfl

/-! ## The run, read -/

theorem run : θ_run defs (onTc (τ := τ) (main (F := Ideal))) ⟨m, fun _ => 0, ρ⟩ fun r => ∀ c : Dev nD,
      r.2.mem ((c.tc : Thread nD τ).loc main_v8)
        = halfSum (meanRatio (sumTv (m ((c.tc : Thread nD τ).loc main_arg0)) (m ((c.tc : Thread nD τ).loc main_arg1))) (cntTv (m ((c.tc : Thread nD τ).loc main_arg1))) redRows posS0)
            (meanRatio (sumNv (m ((c.tc : Thread nD τ).loc main_arg0)) (m ((c.tc : Thread nD τ).loc main_arg1))) (cntNv (m ((c.tc : Thread nD τ).loc main_arg1))) redRows posS0)
      ∧ r.2.mem ((c.tc : Thread nD τ).loc main_v3)
        = meanRatio (sumTv (m ((c.tc : Thread nD τ).loc main_arg0)) (m ((c.tc : Thread nD τ).loc main_arg1))) (cntTv (m ((c.tc : Thread nD τ).loc main_arg1))) redRows posS0
      ∧ r.2.mem ((c.tc : Thread nD τ).loc main_v6)
        = meanRatio (sumNv (m ((c.tc : Thread nD τ).loc main_arg0)) (m ((c.tc : Thread nD τ).loc main_arg1))) (cntNv (m ((c.tc : Thread nD τ).loc main_arg1))) redRows posS0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v8 (Pipeline.mem_restRefs_of main_v8 rfl (by decide))).trans ((tail_v8 m c).trans (by rw [xarr_eq, marr_eq])),
     ((h c).2 main_v3 (Pipeline.mem_restRefs_of main_v3 rfl (by decide))).trans ((tail_v3 m c).trans (by rw [xarr_eq, marr_eq])),
     ((h c).2 main_v6 (Pipeline.mem_restRefs_of main_v6 rfl (by decide))).trans ((tail_v6 m c).trans (by rw [xarr_eq, marr_eq])),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Final

end
-- ==== Proof.Reference.lean ====
/-
  The reference program's results as the shared host tail of the four row statistics.

  The reference works on the whole [4096 × 8192] arrays in one pass. It forms the mask bit "the word is not zero" at every
  entry; the two counts of a row as 32-bit integer sums of the widened bit and of the complemented bit, each converted to
  a float; the two float sums of a row, from the initial value 0, of select(bit, 1 − x, 0) and of
  select(bit, 0, max (x − 0) 0); and then the tail: for each pair (sum, count) the mean over the rows of the row-wise
  quotient, and half the sum of the two means.

  Read one operation at a time:
    mask_apply              the mask at (r, q) is RowLoss.bitAt at (r, q);
    cntT_eq, cntN_eq        the two converted integer counts are RowLoss.cntTv and RowLoss.cntNv (RowLoss.count_cols);
    sumT_eq, sumN_eq        the two float sums are RowLoss.sumTv and RowLoss.sumNv, term by term;
    mean_tgt, mean_non, half  the three last stages are RowLoss.meanRatio, RowLoss.meanRatio and RowLoss.halfSum of the stages before;
    run                     every execution ends with the three results at the tail of the four row statistics of the
                            arguments, the arguments unchanged.
-/
import proofs.«171753_j28011776704955_1_alg».proof.Defs
import proofs.«171753_j28011776704955_1_alg».proof.Proof.Gen.ReferenceIdeal
import proofs.«171753_j28011776704955_1_alg».proof.Proof.Gen.ReferenceIdeal.Run
import proofs.«171753_j28011776704955_1_alg».proof.Proof.Gen.ReferenceIdeal.Read
import proofs.«171753_j28011776704955_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open scoped BigOperators

/-! ## The mask bit -/

/-- The reference's mask at row r, column q is the bit "the mask word there is not zero". -/
theorem mask_apply (x1 : Vec Ideal S4096x8192 .i32) (r : Fin 4096) (q : Fin 8192) :
    val_main_v2 (F := Ideal) x1 (ix2 r q) = RowLoss.bitAt x1 r q := by
  rw [RowLoss.bitAt_of_lt x1 r.isLt q.isLt]
  show IntOp.cmpi .ne (x1 (ix2 r q)) (val_main_v0 (F := Ideal) (ix2 r q)) = IntOp.cmpi .ne (x1 (ix2 r q)) 0#32
  rw [val_main_v0_apply, val_main_c_apply]

/-- The column index the row sums read at: row r, column q. -/
theorem idx_row (r : Fin 4096) (q : Fin 8192) : idx_main_v13 (ix1 r) q = ix2 r q := by
  funext a; match a with | ⟨0, _⟩ => rfl | ⟨1, _⟩ => rfl

/-! ## The two counts -/

/-- The converted integer count of the set bits of a row is the sum of the bits' floats. -/
theorem cntT_eq (x1 : Vec Ideal S4096x8192 .i32) : val_main_v5 (F := Ideal) x1 = RowLoss.cntTv x1 := by
  funext j
  obtain ⟨r, rfl⟩ : ∃ r : Fin 4096, j = ix1 r := ⟨j 0, eq_ix1 j⟩
  rw [val_main_v5_apply]
  unfold val_main_v4 val_main_v3 val_main_c_0
  refine (RowLoss.count_cols (val_main_v2 (F := Ideal) x1) reducesTo_S4096x8192_S4096_d1 h_S_ r).trans ?_
  show _ = ∑ q : Fin 8192, RowLoss.ind (RowLoss.bitAt x1 r q)
  exact Finset.sum_congr rfl fun q _ => congrArg RowLoss.ind (mask_apply x1 r q)

/-- The converted integer count of the clear bits of a row is the sum of the complemented bits' floats. -/
theorem cntN_eq (x1 : Vec Ideal S4096x8192 .i32) : val_main_v9 (F := Ideal) x1 = RowLoss.cntNv x1 := by
  funext j
  obtain ⟨r, rfl⟩ : ∃ r : Fin 4096, j = ix1 r := ⟨j 0, eq_ix1 j⟩
  rw [val_main_v9_apply]
  unfold val_main_v8 val_main_v7 val_main_c_1
  refine (RowLoss.count_cols (val_main_v6 (F := Ideal) x1) reducesTo_S4096x8192_S4096_d1 h_S_ r).trans ?_
  show _ = ∑ q : Fin 8192, RowLoss.ind (~~~RowLoss.bitAt x1 r q)
  refine Finset.sum_congr rfl fun q _ => congrArg RowLoss.ind ?_
  rw [val_main_v6_apply, mask_apply]

/-! ## The two float sums -/

/-- The float sum of a row of select(bit, 1 − x, 0), from 0, is the sum of the target terms. -/
theorem sumT_eq (x0 : Vec Ideal S4096x8192 .f32) (x1 : Vec Ideal S4096x8192 .i32) :
    val_main_v13 (F := Ideal) x0 x1 = RowLoss.sumTv x0 x1 := by
  funext j
  obtain ⟨r, rfl⟩ : ∃ r : Fin 4096, j = ix1 r := ⟨j 0, eq_ix1 j⟩
  rw [val_main_v13_apply, val_main_cst_3_apply, Ideal.ofBits_def, Ideal.ofBits_zero_f32, zero_add]
  show _ = ∑ q : Fin 8192, RowLoss.tgt (RowLoss.bitAt x1 r q) (RowLoss.valAt x0 r q)
  refine Finset.sum_congr rfl fun q _ => ?_
  rw [idx_row, val_main_v12_apply, mask_apply, val_main_v11_apply, val_main_v10_apply, val_main_cst_apply,
    val_main_call0_v1_apply, val_main_call0_v0_apply, val_main_cst_2_apply, RowLoss.valAt_of_lt x0 r.isLt q.isLt]
  simp only [RowLoss.tgt, Ideal.subf_def, Ideal.ofBits_def]

/-- The float sum of a row of select(bit, 0, max (x − 0) 0), from 0, is the sum of the non-target terms. -/
theorem sumN_eq (x0 : Vec Ideal S4096x8192 .f32) (x1 : Vec Ideal S4096x8192 .i32) :
    val_main_v19 (F := Ideal) x0 x1 = RowLoss.sumNv x0 x1 := by
  funext j
  obtain ⟨r, rfl⟩ : ∃ r : Fin 4096, j = ix1 r := ⟨j 0, eq_ix1 j⟩
  rw [val_main_v19_apply, val_main_cst_7_apply, Ideal.ofBits_def, Ideal.ofBits_zero_f32, zero_add]
  show _ = ∑ q : Fin 8192, RowLoss.non (RowLoss.bitAt x1 r q) (RowLoss.valAt x0 r q)
  refine Finset.sum_congr rfl fun q _ => ?_
  rw [show idx_main_v19 (ix1 r) q = ix2 r q from idx_row r q, val_main_v18_apply, mask_apply, val_main_call1_v1_apply,
    val_main_call1_v0_apply, val_main_cst_6_apply, val_main_v17_apply, val_main_v15_apply, val_main_v14_apply,
    val_main_cst_4_apply, val_main_v16_apply, val_main_cst_5_apply, RowLoss.valAt_of_lt x0 r.isLt q.isLt]
  simp only [RowLoss.non, Ideal.subf_def, Ideal.maximumf_def, Ideal.ofBits_def]

/-! ## The tail -/

/-- The target result is the mean over the rows of the quotient of the target sum by the set-bit count. -/
theorem mean_tgt (x0 : Vec Ideal S4096x8192 .f32) (x1 : Vec Ideal S4096x8192 .i32) :
    val_main_v22 (F := Ideal) x0 x1
      = RowLoss.meanRatio (val_main_v13 (F := Ideal) x0 x1) (val_main_v5 (F := Ideal) x1) RowLoss.redRows RowLoss.posS0 := by
  unfold val_main_v22 val_main_v21 val_main_v20 val_main_cst_8 val_main_cst_9 RowLoss.meanRatio
  rfl

/-- The non-target result is the mean over the rows of the quotient of the non-target sum by the clear-bit count. -/
theorem mean_non (x0 : Vec Ideal S4096x8192 .f32) (x1 : Vec Ideal S4096x8192 .i32) :
    val_main_v25 (F := Ideal) x0 x1
      = RowLoss.meanRatio (val_main_v19 (F := Ideal) x0 x1) (val_main_v9 (F := Ideal) x1) RowLoss.redRows RowLoss.posS0 := by
  unfold val_main_v25 val_main_v24 val_main_v23 val_main_cst_10 val_main_cst_11 RowLoss.meanRatio
  rfl

/-- The first result is half the sum of the other two. -/
theorem half (x0 : Vec Ideal S4096x8192 .f32) (x1 : Vec Ideal S4096x8192 .i32) :
    val_main_v27 (F := Ideal) x0 x1
      = RowLoss.halfSum (val_main_v22 (F := Ideal) x0 x1) (val_main_v25 (F := Ideal) x0 x1) := by
  unfold val_main_v27 val_main_v26 val_main_cst_12 RowLoss.halfSum
  rfl

/-- The target result, of the row statistics. -/
theorem res_tgt (x0 : Vec Ideal S4096x8192 .f32) (x1 : Vec Ideal S4096x8192 .i32) :
    val_main_v22 (F := Ideal) x0 x1
      = RowLoss.meanRatio (RowLoss.sumTv x0 x1) (RowLoss.cntTv x1) RowLoss.redRows RowLoss.posS0 := by
  rw [mean_tgt, sumT_eq, cntT_eq]

/-- The non-target result, of the row statistics. -/
theorem res_non (x0 : Vec Ideal S4096x8192 .f32) (x1 : Vec Ideal S4096x8192 .i32) :
    val_main_v25 (F := Ideal) x0 x1
      = RowLoss.meanRatio (RowLoss.sumNv x0 x1) (RowLoss.cntNv x1) RowLoss.redRows RowLoss.posS0 := by
  rw [mean_non, sumN_eq, cntN_eq]

/-- The first result, of the row statistics. -/
theorem res_half (x0 : Vec Ideal S4096x8192 .f32) (x1 : Vec Ideal S4096x8192 .i32) :
    val_main_v27 (F := Ideal) x0 x1
      = RowLoss.halfSum (RowLoss.meanRatio (RowLoss.sumTv x0 x1) (RowLoss.cntTv x1) RowLoss.redRows RowLoss.posS0)
          (RowLoss.meanRatio (RowLoss.sumNv x0 x1) (RowLoss.cntNv x1) RowLoss.redRows RowLoss.posS0) := by
  rw [half, res_tgt, res_non]

/-! ## The run -/

/-- On every device, from any memory with zero counters, every weakly fair execution of the reference terminates with
    its three results at the shared tail of the four row statistics of the two arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v27) = RowLoss.halfSum (RowLoss.meanRatio (RowLoss.sumTv (m ((c.tc : Thread nD τ).loc main_arg0)) (m ((c.tc : Thread nD τ).loc main_arg1))) (RowLoss.cntTv (m ((c.tc : Thread nD τ).loc main_arg1))) RowLoss.redRows RowLoss.posS0) (RowLoss.meanRatio (RowLoss.sumNv (m ((c.tc : Thread nD τ).loc main_arg0)) (m ((c.tc : Thread nD τ).loc main_arg1))) (RowLoss.cntNv (m ((c.tc : Thread nD τ).loc main_arg1))) RowLoss.redRows RowLoss.posS0)
      ∧ r.2.mem ((c.tc : Thread nD τ).loc main_v22) = RowLoss.meanRatio (RowLoss.sumTv (m ((c.tc : Thread nD τ).loc main_arg0)) (m ((c.tc : Thread nD τ).loc main_arg1))) (RowLoss.cntTv (m ((c.tc : Thread nD τ).loc main_arg1))) RowLoss.redRows RowLoss.posS0
      ∧ r.2.mem ((c.tc : Thread nD τ).loc main_v25) = RowLoss.meanRatio (RowLoss.sumNv (m ((c.tc : Thread nD τ).loc main_arg0)) (m ((c.tc : Thread nD τ).loc main_arg1))) (RowLoss.cntNv (m ((c.tc : Thread nD τ).loc main_arg1))) RowLoss.redRows RowLoss.posS0
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono (fun _ h c =>
      ⟨(h c).1.trans ((val_main_v27_eq (F := Ideal) _ _).trans (res_half _ _)),
       (h c).2.1.trans ((val_main_v22_eq (F := Ideal) _ _).trans (res_tgt _ _)),
       (h c).2.2.1.trans ((val_main_v25_eq (F := Ideal) _ _).trans (res_non _ _)),
       (h c).2.2.2.1, (h c).2.2.2.2⟩)
    (Cert.ReferenceIdeal.Value.run (F := Ideal) m ρ)

end Cert.ReferenceIdeal.RefValue

end
-- ==== Proof.lean ====
/-
  The certificate's proof: a masked cosine loss computed by a tiled kernel equals its one-pass reference over the extended reals.

  Both programs reduce a score array x and a mask array mk, both [4096 × 8192], to three scalars. Per row r they form
    cntT r = the number of columns with mk ≠ 0,  cntN r = the number with mk = 0  (as floats),
    sumT r = the sum over the columns with mk ≠ 0 of 1 − x,  sumN r = the sum over the others of max (x − 0) 0,
  and then, on the host, the mean over the rows of sumT / cntT, the mean of sumN / cntN, and half their sum.
  The kernel walks 8 × 8 tiles of 512 rows by 1024 columns, keeps the four statistics of a row block in four accumulators
  over its eight column tiles (reset at the first, written out at the last), counts in floats, and obtains the clear-bit
  count as 1024 minus the set-bit count tile by tile. The reference sums each row in one pass and counts in 32-bit
  integers that it converts afterwards. Over the extended reals the two agree: a sum over 8192 columns is the sum of its
  eight consecutive blocks of 1024 (addition there is commutative and associative); among 1024 bits, 1024 minus the number
  set is the number clear; and an integer count of at most 8192 ones, converted, is the sum of the ones as floats. The host
  tail is the same chain of operations on both sides and is carried as one function of the four row vectors.
  The idealization rewrote nothing, so preserves is trivial; no law used needs the inputs finite, so the precondition is
  never opened. The three frames are the generated frame runs (the reference's is its run with the results dropped).
-/
import proofs.«171753_j28011776704955_1_alg».proof.Defs
import proofs.«171753_j28011776704955_1_alg».proof.Proof.Gen.Kernel
import proofs.«171753_j28011776704955_1_alg».proof.Proof.Gen.Kernel.Frame
import proofs.«171753_j28011776704955_1_alg».proof.Proof.Gen.KernelIdeal
import proofs.«171753_j28011776704955_1_alg».proof.Proof.Gen.KernelIdeal.Frame
import proofs.«171753_j28011776704955_1_alg».proof.Proof.Gen.ReferenceIdeal
import proofs.«171753_j28011776704955_1_alg».proof.Proof.Gen.Pre_finite_inputs
import proofs.«171753_j28011776704955_1_alg».proof.Proof.Final
import proofs.«171753_j28011776704955_1_alg».proof.Proof.Reference
import Idealize.ShloMosaic.Adequacy
import Idealize.ShloMosaic.Init

noncomputable section

namespace Cert.Proof

open Idealize.ShloMosaic Idealize.SL.Sem

/-- The kernel at the word level runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the results dropped. -/
theorem frame_referenceIdeal : Cert.frame_ReferenceIdeal := fun m ρ _ =>
  (θ_run Cert.ReferenceIdeal.defs _ _).mono (fun _ h c => (h c).2.2.2) (Cert.ReferenceIdeal.RefValue.run m ρ)

/-- From memories that agree on the two arguments both programs end at the shared tail of the four row statistics of
    those arguments. -/
theorem algebraic : Cert.algebraic_KernelIdeal_ReferenceIdeal := by
  intro m ρ m' ρ' _ hagree
  refine ⟨_, _, _, Cert.KernelIdeal.Final.run m ρ, ?_⟩
  refine (θ_run Cert.ReferenceIdeal.defs _ _).mono (fun _ h c => ?_) (Cert.ReferenceIdeal.RefValue.run m' ρ')
  obtain ⟨h27, h22, h25, ha0, ha1⟩ := h c
  rw [(hagree c).1, (hagree c).2] at h27 h22 h25
  exact ⟨h27, h22, h25, ha0, ha1⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
